-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x1600000 : Shape := ⟨2, ![2, 1600000]⟩
abbrev S4x512 : Shape := ⟨2, ![4, 512]⟩
abbrev S4 : Shape := ⟨1, ![4]⟩
abbrev S64x4 : Shape := ⟨2, ![64, 4]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S4x512 : S_.BroadcastsInDim S4x512 (![] : Fin 0 → Fin S4x512.rank)
  reducesTo_S4x512_S_d0_1 : S4x512.ReducesTo [0, 1] S_
  bcast_S_S4 : S_.BroadcastsInDim S4 (![] : Fin 0 → Fin S4.rank)
  reducesTo_S4_S_d0 : S4.ReducesTo [0] S_
  bcast_S_S64x4 : S_.BroadcastsInDim S64x4 (![] : Fin 0 → Fin S64x4.rank)
  reducesTo_S64x4_S_d0_1 : S64x4.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x4 1) : IVec S_ 1 :=
  let main_c_5 : IVec S_ 1 := constantI S_ 1 1#1
  let main_v17 : IVec S_ 1 := (fun x v => Host.reduce IntOp.andi x v reducesTo_S64x4_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x512 .f32) (main_arg1 : IVec S2x1600000 32) (main_arg2 : FVec F S4x512 .f32) (main_arg3 : FVec F S4 .f32) (main_arg4 : FVec F S64x4 .f32) (main_arg5 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S4x512 .f32 := Host.absf main_arg2
  let main_cst_0 : FVec F S_ .f32 := constant S_ .f32 0x7F800000#32
  let main_v5 : FVec F S4x512 .f32 := broadcastInDim S4x512 ![] bcast_S_S4x512 main_cst_0
  let main_v6 : IVec S4x512 1 := cmpf .olt main_v4 main_v5
  let main_c_1 : IVec S_ 1 := constantI S_ 1 1#1
  let main_v7 : IVec S_ 1 := (fun x v => Host.reduce IntOp.andi x v reducesTo_S4x512_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S64x4 .f32 := Host.absf main_arg4
  let main_cst_4 : FVec F S_ .f32 := constant S_ .f32 0x7F800000#32
  let main_v15 : FVec F S64x4 .f32 := broadcastInDim S64x4 ![] bcast_S_S64x4 main_cst_4
  let main_v16 : IVec S64x4 1 := cmpf .olt main_v14 main_v15
  fn_part1 (F := F) main_arg5 main_v13 main_v16
-- ==== Kernel.lean ====
abbrev S50000x512 : Shape := ⟨2, ![50000, 512]⟩
abbrev S2x1600000 : Shape := ⟨2, ![2, 1600000]⟩
abbrev S4x512 : Shape := ⟨2, ![4, 512]⟩
abbrev S4 : Shape := ⟨1, ![4]⟩
abbrev S64x4 : Shape := ⟨2, ![64, 4]⟩
abbrev S64 : Shape := ⟨1, ![64]⟩
abbrev S50000x4 : Shape := ⟨2, ![50000, 4]⟩
abbrev S50000x64 : Shape := ⟨2, ![50000, 64]⟩
abbrev S5000x512 : Shape := ⟨2, ![5000, 512]⟩
abbrev S5000x4 : Shape := ⟨2, ![5000, 4]⟩
abbrev S5000x64 : Shape := ⟨2, ![5000, 64]⟩
abbrev S512x4 : Shape := ⟨2, ![512, 4]⟩
abbrev S1x4 : Shape := ⟨2, ![1, 4]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x4 : Shape := ⟨2, ![1600000, 4]⟩
abbrev S50000 : Shape := ⟨1, ![50000]⟩
abbrev S50000x1 : Shape := ⟨2, ![50000, 1]⟩
abbrev S50000x64x64 : Shape := ⟨3, ![50000, 64, 64]⟩
abbrev S400x64 : Shape := ⟨2, ![400, 64]⟩
abbrev S400x4 : Shape := ⟨2, ![400, 4]⟩
abbrev S400x64x64 : Shape := ⟨3, ![400, 64, 64]⟩
abbrev S4x64 : Shape := ⟨2, ![4, 64]⟩
abbrev S400x64x1 : Shape := ⟨3, ![400, 64, 1]⟩
abbrev S400x1x64 : Shape := ⟨3, ![400, 1, 64]⟩
abbrev S1x1x64 : Shape := ⟨3, ![1, 1, 64]⟩

abbrev nBuf : Space → Nat
  | .hbm => 47
  | .vmem => 16
  | .smem => 0
  | _ => 0

abbrev bufTy : (tb : Table) → Fin (tcTables nBuf tb) → BufTy
  | .hbm, ⟨0, _⟩ => ⟨S50000x512, .f32⟩
  | .hbm, ⟨1, _⟩ => ⟨S2x1600000, .i32⟩
  | .hbm, ⟨2, _⟩ => ⟨S4x512, .f32⟩
  | .hbm, ⟨3, _⟩ => ⟨S4, .f32⟩
  | .hbm, ⟨4, _⟩ => ⟨S64x4, .f32⟩
  | .hbm, ⟨5, _⟩ => ⟨S64, .f32⟩
  | .hbm, ⟨6, _⟩ => ⟨S50000x4, .f32⟩
  | .hbm, ⟨7, _⟩ => ⟨S50000x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x4, .f32⟩
  | .hbm, ⟨21, _⟩ => ⟨S_, .f32⟩
  | .hbm, ⟨22, _⟩ => ⟨S50000x4, .f32⟩
  | .hbm, ⟨23, _⟩ => ⟨S1600000x1, .i32⟩
  | .hbm, ⟨24, _⟩ => ⟨S50000x4, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S50000, .f32⟩
  | .hbm, ⟨29, _⟩ => ⟨S1600000x1, .i32⟩
  | .hbm, ⟨30, _⟩ => ⟨S50000, .f32⟩
  | .hbm, ⟨31, _⟩ => ⟨S50000x1, .f32⟩
  | .hbm, ⟨32, _⟩ => ⟨S_, .f32⟩
  | .hbm, ⟨33, _⟩ => ⟨S50000x1, .f32⟩
  | .hbm, ⟨34, _⟩ => ⟨S50000x1, .i1⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x4, .f32⟩
  | .hbm, ⟨40, _⟩ => ⟨S50000x4, .f32⟩
  | .hbm, ⟨41, _⟩ => ⟨S_, .f32⟩
  | .hbm, ⟨42, _⟩ => ⟨S_, .f32⟩
  | .hbm, ⟨43, _⟩ => ⟨S50000x4, .i1⟩
  | .hbm, ⟨44, _⟩ => ⟨S50000x4, .f32⟩
  | .hbm, ⟨45, _⟩ => ⟨S50000x4, .f32⟩
  | .hbm, ⟨46, _⟩ => ⟨S50000x64x64, .f32⟩
  | .local _ .vmem, ⟨0, _⟩ => ⟨S5000x512, .f32⟩
  | .local _ .vmem, ⟨1, _⟩ => ⟨S5000x512, .f32⟩
  | .local _ .vmem, ⟨2, _⟩ => ⟨S4x512, .f32⟩
  | .local _ .vmem, ⟨3, _⟩ => ⟨S4, .f32⟩
  | .local _ .vmem, ⟨4, _⟩ => ⟨S5000x4, .f32⟩
  | .local _ .vmem, ⟨5, _⟩ => ⟨S5000x4, .f32⟩
  | .local _ .vmem, ⟨6, _⟩ => ⟨S5000x64, .f32⟩
  | .local _ .vmem, ⟨7, _⟩ => ⟨S5000x64, .f32⟩
  | .local _ .vmem, ⟨8, _⟩ => ⟨S400x64, .f32⟩
  | .local _ .vmem, ⟨9, _⟩ => ⟨S400x64, .f32⟩
  | .local _ .vmem, ⟨10, _⟩ => ⟨S400x4, .f32⟩
  | .local _ .vmem, ⟨11, _⟩ => ⟨S400x4, .f32⟩
  | .local _ .vmem, ⟨12, _⟩ => ⟨S64x4, .f32⟩
  | .local _ .vmem, ⟨13, _⟩ => ⟨S64, .f32⟩
  | .local _ .vmem, ⟨14, _⟩ => ⟨S400x64x64, .f32⟩
  | .local _ .vmem, ⟨15, _⟩ => ⟨S400x64x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v27 : Ref sig .tc := ⟨.hbm, 45, rfl⟩
abbrev main_v28 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S400x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x64x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S5000x512_S5000x512_0_0 : ∀ a, (![0, 0] : Fin 2 → Nat) a + S5000x512.size a ≤ S5000x512.size a
  h_S5000x512 : 0 < S5000x512.numel
  inb_S4x512_S4x512_0_0 : ∀ a, (![0, 0] : Fin 2 → Nat) a + S4x512.size a ≤ S4x512.size a
  h_S4x512 : 0 < S4x512.numel
  bitsLt_bf16_f32 : FTy.bits .bf16 < FTy.bits .f32
  transposes_S4x512_p1_0_S512x4 : S4x512.Transposes [1, 0] S512x4
  inb_S4_S4_0 : ∀ a, (![0] : Fin 1 → Nat) a + S4.size a ≤ S4.size a
  h_S4 : 0 < S4.numel
  shapeCasts_S4_S1x4 : S4.ShapeCasts S1x4
  broadcasts_S1x4_S5000x4 : S1x4.Broadcasts S5000x4
  inb_S5000x4_S5000x4_0_0 : ∀ a, (![0, 0] : Fin 2 → Nat) a + S5000x4.size a ≤ S5000x4.size a
  h_S5000x4 : 0 < S5000x4.numel
  slices_S5000x512_o0_0_S5000x64 : S5000x512.Slices ![0, 0] S5000x64
  inb_S5000x64_S5000x64_0_0 : ∀ a, (![0, 0] : Fin 2 → Nat) a + S5000x64.size a ≤ S5000x64.size a
  h_S5000x64 : 0 < S5000x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x4 : S_.BroadcastsInDim S50000x4 (![] : Fin 0 → Fin S50000x4.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x4_0_1 : S50000x1.BroadcastsInDim S50000x4 (![0, 1] : Fin 2 → Fin S50000x4.rank)
  inb_S400x64_S400x64_0_0 : ∀ a, (![0, 0] : Fin 2 → Nat) a + S400x64.size a ≤ S400x64.size a
  h_S400x64 : 0 < S400x64.numel
  shapeCasts_S400x64_S400x64 : S400x64.ShapeCasts S400x64
  inb_S400x4_S400x4_0_0 : ∀ a, (![0, 0] : Fin 2 → Nat) a + S400x4.size a ≤ S400x4.size a
  h_S400x4 : 0 < S400x4.numel
  shapeCasts_S400x4_S400x4 : S400x4.ShapeCasts S400x4
  inb_S64x4_S64x4_0_0 : ∀ a, (![0, 0] : Fin 2 → Nat) a + S64x4.size a ≤ S64x4.size a
  h_S64x4 : 0 < S64x4.numel
  transposes_S64x4_p1_0_S4x64 : S64x4.Transposes [1, 0] S4x64
  shapeCasts_S400x64_S400x64x1 : S400x64.ShapeCasts S400x64x1
  shapeCasts_S400x64_S400x1x64 : S400x64.ShapeCasts S400x1x64
  broadcasts_S400x64x1_S400x64x64 : S400x64x1.Broadcasts S400x64x64
  broadcasts_S400x1x64_S400x64x64 : S400x1x64.Broadcasts S400x64x64
  inb_S64_S64_0 : ∀ a, (![0] : Fin 1 → Nat) a + S64.size a ≤ S64.size a
  h_S64 : 0 < S64.numel
  shapeCasts_S64_S1x1x64 : S64.ShapeCasts S1x1x64
  broadcasts_S1x1x64_S400x64x64 : S1x1x64.Broadcasts S400x64x64
  inb_S400x64x64_S400x64x64_0_0_0 : ∀ a, (![0, 0, 0] : Fin 3 → Nat) a + S400x64x64.size a ≤ S400x64x64.size a
  h_S400x64x64 : 0 < S400x64x64.numel
  dot_S5000x512_S512x4_S5000x4_1_0_0_1_n_n_wf : DotDims.WF S5000x512 S512x4 S5000x4 [1] [0] [0] [1] [] []
  gather_S50000x4_S1600000x1_S1600000x4_1_0_n_n_0_1_14_wf : GatherDims.WF S50000x4 S1600000x1 S1600000x4 [1] [0] [] [0] [] 1 ![1, 4]
  scatter_S50000x4_S1600000x1_S1600000x4_1_0_0_1_wf : ScatterDims.WF S50000x4 S1600000x1 S1600000x4 [1] [0] [0] 1
  scatter_S50000_S1600000x1_S1600000_n_0_0_1_wf : ScatterDims.WF S50000 S1600000x1 S1600000 [] [0] [0] 1
  dot_S400x4_S4x64_S400x64_1_0_0_1_n_n_wf : DotDims.WF S400x4 S4x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x512.size a ≤ S4x512.size a
  hwx0_1 : ∀ i : grid0.Coords, EltTy.bits .f32 = 32 ∨ (Rect.block (s := S4x512) S4x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4.size a ≤ S4.size a
  hwx0_2 : ∀ i : grid0.Coords, EltTy.bits .f32 = 32 ∨ (Rect.block (s := S4) S4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x4.size a ≤ S50000x4.size a
  hwx0_3 : ∀ i : grid0.Coords, EltTy.bits .f32 = 32 ∨ (Rect.block (s := S50000x4) S5000x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x64.size a ≤ S50000x64.size a
  hwx1_0 : ∀ i : grid1.Coords, EltTy.bits .f32 = 32 ∨ (Rect.block (s := S50000x64) S400x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x4.size a ≤ S50000x4.size a
  hwx1_1 : ∀ i : grid1.Coords, EltTy.bits .f32 = 32 ∨ (Rect.block (s := S50000x4) S400x4.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x4.size a ≤ S64x4.size a
  hwx1_2 : ∀ i : grid1.Coords, EltTy.bits .f32 = 32 ∨ (Rect.block (s := S64x4) S64x4.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x64x64.size a ≤ S50000x64x64.size a
  hwx1_4 : ∀ i : grid1.Coords, EltTy.bits .f32 = 32 ∨ (Rect.block (s := S50000x64x64) S400x64x64.size (cc1_transform_4 i) (hinb1_4 i)).WholeWords (EltTy.packing .f32)

variable [Facts₀]

def dot_S5000x512_S512x4_S5000x4_1_0_0_1_n_n : DotDims S5000x512 S512x4 S5000x4 where
  lhsContracting := [1]
  rhsContracting := [0]
  lhsNonContracting := [0]
  rhsNonContracting := [1]
  lhsBatch := []
  rhsBatch := []
  wf := dot_S5000x512_S512x4_S5000x4_1_0_0_1_n_n_wf
def gather_S50000x4_S1600000x1_S1600000x4_1_0_n_n_0_1_14 : GatherDims S50000x4 S1600000x1 S1600000x4 where
  offsetDims := [1]
  collapsedSliceDims := [0]
  operandBatchingDims := []
  startIndicesBatchingDims := []
  startIndexMap := [0]
  indexVectorDim := 1
  sliceSizes := ![1, 4]
  wf := gather_S50000x4_S1600000x1_S1600000x4_1_0_n_n_0_1_14_wf
def scatter_S50000x4_S1600000x1_S1600000x4_1_0_0_1 : ScatterDims S50000x4 S1600000x1 S1600000x4 where
  updateWindowDims := [1]
  insertedWindowDims := [0]
  scatterDimsToOperandDims := [0]
  indexVectorDim := 1
  wf := scatter_S50000x4_S1600000x1_S1600000x4_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S400x4_S4x64_S400x64_1_0_0_1_n_n : DotDims S400x4 S4x64 S400x64 where
  lhsContracting := [1]
  rhsContracting := [0]
  lhsNonContracting := [0]
  rhsNonContracting := [1]
  lhsBatch := []
  rhsBatch := []
  wf := dot_S400x4_S4x64_S400x64_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S5000x4.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0_1) S400x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S400x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x4.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S400x64x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x1600000 : Shape := ⟨2, ![2, 1600000]⟩
abbrev S4x512 : Shape := ⟨2, ![4, 512]⟩
abbrev S4 : Shape := ⟨1, ![4]⟩
abbrev S64x4 : Shape := ⟨2, ![64, 4]⟩
abbrev S64 : Shape := ⟨1, ![64]⟩
abbrev S1x1600000 : Shape := ⟨2, ![1, 1600000]⟩
abbrev S1600000 : Shape := ⟨1, ![1600000]⟩
abbrev S512x4 : Shape := ⟨2, ![512, 4]⟩
abbrev S50000x4 : Shape := ⟨2, ![50000, 4]⟩
abbrev S1x4 : Shape := ⟨2, ![1, 4]⟩
abbrev S_ : Shape := ⟨0, ![]⟩
abbrev S1600000x1 : Shape := ⟨2, ![1600000, 1]⟩
abbrev S1600000x4 : Shape := ⟨2, ![1600000, 4]⟩
abbrev S50000 : Shape := ⟨1, ![50000]⟩
abbrev S50000x1 : Shape := ⟨2, ![50000, 1]⟩
abbrev S50000x1x4 : Shape := ⟨3, ![50000, 1, 4]⟩
abbrev S50000x64 : Shape := ⟨2, ![50000, 64]⟩
abbrev S50000x64x1 : Shape := ⟨3, ![50000, 64, 1]⟩
abbrev S50000x64x4 : Shape := ⟨3, ![50000, 64, 4]⟩
abbrev S50000x64x64 : Shape := ⟨3, ![50000, 64, 64]⟩
abbrev S1x1x64 : Shape := ⟨3, ![1, 1, 64]⟩

abbrev nBuf : Space → Nat
  | .hbm => 63
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x1600000, .i32⟩
  | .hbm, ⟨2, _⟩ => ⟨S4x512, .f32⟩
  | .hbm, ⟨3, _⟩ => ⟨S4, .f32⟩
  | .hbm, ⟨4, _⟩ => ⟨S64x4, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S512x4, .f32⟩
  | .hbm, ⟨11, _⟩ => ⟨S50000x4, .f32⟩
  | .hbm, ⟨12, _⟩ => ⟨S1x4, .f32⟩
  | .hbm, ⟨13, _⟩ => ⟨S50000x4, .f32⟩
  | .hbm, ⟨14, _⟩ => ⟨S50000x4, .f32⟩
  | .hbm, ⟨15, _⟩ => ⟨S50000x4, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x4, .f32⟩
  | .hbm, ⟨25, _⟩ => ⟨S_, .f32⟩
  | .hbm, ⟨26, _⟩ => ⟨S50000x4, .f32⟩
  | .hbm, ⟨27, _⟩ => ⟨S1600000x1, .i32⟩
  | .hbm, ⟨28, _⟩ => ⟨S50000x4, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S50000, .f32⟩
  | .hbm, ⟨33, _⟩ => ⟨S1600000x1, .i32⟩
  | .hbm, ⟨34, _⟩ => ⟨S50000, .f32⟩
  | .hbm, ⟨35, _⟩ => ⟨S50000x1, .f32⟩
  | .hbm, ⟨36, _⟩ => ⟨S_, .f32⟩
  | .hbm, ⟨37, _⟩ => ⟨S50000x1, .f32⟩
  | .hbm, ⟨38, _⟩ => ⟨S50000x1, .i1⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000x1, .f32⟩
  | .hbm, ⟨43, _⟩ => ⟨S50000x4, .f32⟩
  | .hbm, ⟨44, _⟩ => ⟨S50000x4, .f32⟩
  | .hbm, ⟨45, _⟩ => ⟨S_, .f32⟩
  | .hbm, ⟨46, _⟩ => ⟨S_, .f32⟩
  | .hbm, ⟨47, _⟩ => ⟨S50000x4, .i1⟩
  | .hbm, ⟨48, _⟩ => ⟨S50000x4, .f32⟩
  | .hbm, ⟨49, _⟩ => ⟨S50000x4, .f32⟩
  | .hbm, ⟨50, _⟩ => ⟨S50000x1x4, .f32⟩
  | .hbm, ⟨51, _⟩ => ⟨S50000x64, .f32⟩
  | .hbm, ⟨52, _⟩ => ⟨S50000x64x1, .f32⟩
  | .hbm, ⟨53, _⟩ => ⟨S50000x64x4, .f32⟩
  | .hbm, ⟨54, _⟩ => ⟨S50000x64x4, .f32⟩
  | .hbm, ⟨55, _⟩ => ⟨S50000x64x4, .f32⟩
  | .hbm, ⟨56, _⟩ => ⟨S50000x64x64, .f32⟩
  | .hbm, ⟨57, _⟩ => ⟨S1x1x64, .f32⟩
  | .hbm, ⟨58, _⟩ => ⟨S50000x64x64, .f32⟩
  | .hbm, ⟨59, _⟩ => ⟨S50000x64x64, .f32⟩
  | .hbm, ⟨60, _⟩ => ⟨S_, .f32⟩
  | .hbm, ⟨61, _⟩ => ⟨S50000x64x64, .f32⟩
  | .hbm, ⟨62, _⟩ => ⟨S50000x64x64, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_call1_cst : Ref sig .tc := ⟨.hbm, 60, rfl⟩
abbrev main_call1_v0 : Ref sig .tc := ⟨.hbm, 61, rfl⟩
abbrev main_v43 : Ref sig .tc := ⟨.hbm, 62, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S4x512_S512x4_1_0 : S4x512.Transposes [1, 0] S512x4
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x4 : S_.BroadcastsInDim S50000x4 (![] : Fin 0 → Fin S50000x4.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x4_0_1 : S50000x1.BroadcastsInDim S50000x4 (![0, 1] : Fin 2 → Fin S50000x4.rank)
  bcast_S50000x4_S50000x1x4_0_2 : S50000x4.BroadcastsInDim S50000x1x4 (![0, 2] : Fin 2 → Fin S50000x1x4.rank)
  slices_S50000x512_S50000x64_0_0 : S50000x512.Slices ![0, 0] S50000x64
  bcast_S50000x64_S50000x64x1_0_1 : S50000x64.BroadcastsInDim S50000x64x1 (![0, 1] : Fin 2 → Fin S50000x64x1.rank)
  bcast_S50000x1x4_S50000x64x4_0_1_2 : S50000x1x4.BroadcastsInDim S50000x64x4 (![0, 1, 2] : Fin 3 → Fin S50000x64x4.rank)
  bcast_S50000x64x1_S50000x64x4_0_1_2 : S50000x64x1.BroadcastsInDim S50000x64x4 (![0, 1, 2] : Fin 3 → Fin S50000x64x4.rank)
  bcast_S64_S1x1x64_2 : S64.BroadcastsInDim S1x1x64 (![2] : Fin 1 → Fin S1x1x64.rank)
  bcast_S1x1x64_S50000x64x64_0_1_2 : S1x1x64.BroadcastsInDim S50000x64x64 (![0, 1, 2] : Fin 3 → Fin S50000x64x64.rank)
  bcast_S_S50000x64x64 : S_.BroadcastsInDim S50000x64x64 (![] : Fin 0 → Fin S50000x64x64.rank)
  dot_S50000x512_S512x4_S50000x4_1_0_0_1_n_n_wf : DotDims.WF S50000x512 S512x4 S50000x4 [1] [0] [0] [1] [] []
  gather_S50000x4_S1600000x1_S1600000x4_1_0_n_n_0_1_14_wf : GatherDims.WF S50000x4 S1600000x1 S1600000x4 [1] [0] [] [0] [] 1 ![1, 4]
  scatter_S50000x4_S1600000x1_S1600000x4_1_0_0_1_wf : ScatterDims.WF S50000x4 S1600000x1 S1600000x4 [1] [0] [0] 1
  scatter_S50000_S1600000x1_S1600000_n_0_0_1_wf : ScatterDims.WF S50000 S1600000x1 S1600000 [] [0] [0] 1
  dot_S50000x64x4_S64x4_S50000x64x64_2_1_01_0_n_n_wf : DotDims.WF S50000x64x4 S64x4 S50000x64x64 [2] [1] [0, 1] [0] [] []

variable [Facts₀]

def dot_S50000x512_S512x4_S50000x4_1_0_0_1_n_n : DotDims S50000x512 S512x4 S50000x4 where
  lhsContracting := [1]
  rhsContracting := [0]
  lhsNonContracting := [0]
  rhsNonContracting := [1]
  lhsBatch := []
  rhsBatch := []
  wf := dot_S50000x512_S512x4_S50000x4_1_0_0_1_n_n_wf
def gather_S50000x4_S1600000x1_S1600000x4_1_0_n_n_0_1_14 : GatherDims S50000x4 S1600000x1 S1600000x4 where
  offsetDims := [1]
  collapsedSliceDims := [0]
  operandBatchingDims := []
  startIndicesBatchingDims := []
  startIndexMap := [0]
  indexVectorDim := 1
  sliceSizes := ![1, 4]
  wf := gather_S50000x4_S1600000x1_S1600000x4_1_0_n_n_0_1_14_wf
def scatter_S50000x4_S1600000x1_S1600000x4_1_0_0_1 : ScatterDims S50000x4 S1600000x1 S1600000x4 where
  updateWindowDims := [1]
  insertedWindowDims := [0]
  scatterDimsToOperandDims := [0]
  indexVectorDim := 1
  wf := scatter_S50000x4_S1600000x1_S1600000x4_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x64x4_S64x4_S50000x64x64_2_1_01_0_n_n : DotDims S50000x64x4 S64x4 S50000x64x64 where
  lhsContracting := [2]
  rhsContracting := [1]
  lhsNonContracting := [0, 1]
  rhsNonContracting := [0]
  lhsBatch := []
  rhsBatch := []
  wf := dot_S50000x64x4_S64x4_S50000x64x64_2_1_01_0_n_n_wf

class Facts : Prop extends Facts₀ where

variable [Facts]
-- ==== Proof.Spec.lean ====
/-
  The mathematics of the node-aggregation kernel, stated once over plain index types and the extended reals.

  A node n has a feature row x[n, ·] of 512 reals; core c has a weight row w[c, ·] and a bias b[c]. The per-node
  signal is s[n, c] = tanh(∑ₖ x[n, k] · w[c, k] + b[c]). From the signals and the edge list the host forms the mean
  of the incoming neighbours' signals, avg[n, c]. The result is
      out[n, f, o] = max(x[n, f] · (∑_c avg[n, c] · W[o, c]) + bias[o], 0)          (the kernel's arrangement)
                   = max((∑_c (avg[n, c] · x[n, f]) · W[o, c]) + bias[o], 0)        (the reference's arrangement)
  for f, o < 64. The two arrangements differ by moving the factor x[n, f] across the sum over the four cores, which on
  the extended reals is sound when every term is a real number: that is where finiteness of x, avg and W enters.
-/
import Idealize.ShloMosaic.PureOps.Ideal
import Idealize.ShloMosaic.Lib.ValueIdx

noncomputable section

namespace Cert.NodeAgg

open Idealize.ShloMosaic Idealize.ShloMosaic.ValueIdx

/-- Every entry of the array is a real number (neither infinity). -/
def AllReal {ι : Type} (v : ι → EReal) : Prop := ∀ i, ∃ r : ℝ, v i = (r : EReal)

abbrev SX : Shape := ⟨2, ![50000, 512]⟩
abbrev SW : Shape := ⟨2, ![4, 512]⟩
abbrev SB : Shape := ⟨1, ![4]⟩
abbrev SS : Shape := ⟨2, ![50000, 4]⟩
abbrev SXs : Shape := ⟨2, ![50000, 64]⟩
abbrev SWo : Shape := ⟨2, ![64, 4]⟩
abbrev SBo : Shape := ⟨1, ![64]⟩
abbrev SO : Shape := ⟨3, ![50000, 64, 64]⟩

/-- The float zero both programs clamp against. -/
abbrev zeroF : EReal := Ideal.ofBits .f32 0x00000000#32

/-- The signal of node n at core c: tanh of the row product plus the core's bias. -/
def signalAt (x : SX.Idx → EReal) (w : SW.Idx → EReal) (b : SB.Idx → EReal) (n : Fin 50000) (c : Fin 4) : EReal :=
  Ideal.tanh ((∑ k : Fin 512, x (ix2 n k) * w (ix2 c k)) + b (ix1 c))

/-- The signals as an array over nodes and cores. -/
def signal (x : SX.Idx → EReal) (w : SW.Idx → EReal) (b : SB.Idx → EReal) : SS.Idx → EReal :=
  fun i => signalAt x w b (i 0) (i 1)

/-- The first 64 features of every node. -/
def slice64 (x : SX.Idx → EReal) : SXs.Idx → EReal :=
  fun j => x (ix2 (j 0) (Fin.castLE (n := 64) (m := 512) (by decide) (j 1)))

/-- The kernel's arrangement of the result: the feature times the contracted mean, plus the bias, clamped at zero. -/
def aggK (xs : SXs.Idx → EReal) (avg : SS.Idx → EReal) (W : SWo.Idx → EReal) (b : SBo.Idx → EReal) : SO.Idx → EReal :=
  fun i => max (xs (ix2 (i 0) (i 1)) * (∑ k : Fin 4, avg (ix2 (i 0) k) * W (ix2 (i 2) k)) + b (ix1 (i 2))) zeroF

/-- The reference's arrangement: the messages avg · x contracted with W over the cores, plus the bias, clamped at zero. -/
def aggR (x : SX.Idx → EReal) (avg : SS.Idx → EReal) (W : SWo.Idx → EReal) (b : SBo.Idx → EReal) : SO.Idx → EReal :=
  fun i => max ((∑ k : Fin 4, (avg (ix2 (i 0) k) * x (ix2 (i 0) (Fin.castLE (n := 64) (m := 512) (by decide) (i 1)))) * W (ix2 (i 2) k))
    + b (ix1 (i 2))) zeroF

/-- A real factor moves across a sum of four products of reals. -/
theorem mul_sum4_real (r : ℝ) (a w : Fin 4 → ℝ) :
    (r : EReal) * (∑ k : Fin 4, (a k : EReal) * (w k : EReal)) = ∑ k : Fin 4, ((a k : EReal) * (r : EReal)) * (w k : EReal) := by
  simp only [Fin.sum_univ_four, ← EReal.coe_mul, ← EReal.coe_add]
  congr 1
  ring

/-- Tanh of anything is a real number: it is ±1 at the infinities. -/
theorem tanh_real (v : EReal) : ∃ r : ℝ, Ideal.tanh v = (r : EReal) := by
  induction v using EReal.rec with
  | bot => exact ⟨-1, by simp [Ideal.tanh_bot]⟩
  | coe r => exact ⟨Real.tanh r, rfl⟩
  | top => exact ⟨1, by simp [Ideal.tanh_top]⟩

/-- Every signal is a real number, whatever the inputs. -/
theorem signal_allReal (x : SX.Idx → EReal) (w : SW.Idx → EReal) (b : SB.Idx → EReal) : AllReal (signal x w b) :=
  fun _ => tanh_real _

/-- With real features, means and weights the two arrangements agree entry by entry. -/
theorem aggK_slice_eq_aggR (x : SX.Idx → EReal) (avg : SS.Idx → EReal) (W : SWo.Idx → EReal) (b : SBo.Idx → EReal)
    (hx : AllReal x) (ha : AllReal avg) (hW : AllReal W) : aggK (slice64 x) avg W b = aggR x avg W b := by
  funext i
  unfold aggK aggR slice64
  obtain ⟨r, hr⟩ := hx (ix2 (i 0) (Fin.castLE (n := 64) (m := 512) (by decide) (i 1)))
  choose a ha' using fun k : Fin 4 => ha (ix2 (i 0) k)
  choose w hw' using fun k : Fin 4 => hW (ix2 (i 2) k)
  simp only [ha', hw']
  rw [show x (ix2 (i 0) (Fin.castLE (n := 64) (m := 512) (by decide) (i 1))) = (r : EReal) from hr]
  rw [mul_sum4_real]

end Cert.NodeAgg

end
-- ==== Proof.AvgChain.lean ====
/-
  The mean of the incoming neighbours' signals, as the one composition of host operations both programs apply to
  the signal array s and the edge list e: the sources are wrapped (a negative index counts from the end), the
  signal rows gathered at them are added into the row of their target, a row of ones is added likewise to count the
  incoming edges, and where the count is positive the sum is divided by it (by at least one), elsewhere the mean is zero.
-/
import proofs.«175520_j39204461478459_1_alg».proof.Proof.Gen.KernelIdeal
import proofs.«175520_j39204461478459_1_alg».proof.Proof.Spec
import Idealize.ShloMosaic.PureOps.Ideal.Laws

noncomputable section

namespace Cert.KernelIdeal.Hand

open Cert.KernelIdeal Cert.KernelIdeal.Gen Cert.NodeAgg
open Idealize.ShloMosaic Idealize.ShloMosaic.TcCoe Idealize.SL.Sem

variable {F : FTy → Type} [FloatOps F]

/-- Row r of the edge list, as a vector of edge endpoints. -/
def srcOf (e : IVec S2x1600000 32) : IVec S1600000 32 :=
  shapeCast _ (extractStridedSlice S1x1600000 ![0, 0] e slices_S2x1600000_S1x1600000_0_0) shapeCasts_S1x1600000_S1600000
def tgtOf (e : IVec S2x1600000 32) : IVec S1600000 32 :=
  shapeCast _ (extractStridedSlice S1x1600000 ![1, 0] e slices_S2x1600000_S1x1600000_1_0) shapeCasts_S1x1600000_S1600000

/-- The sources with a negative index counted from the end. -/
def srcWrapped (e : IVec S2x1600000 32) : IVec S1600000 32 :=
  select (cmpi .slt (srcOf e) (broadcastInDim S1600000 ![] bcast_S_S1600000 (constantI S_ 32 0#32)))
    (addi (srcOf e) (broadcastInDim S1600000 ![] bcast_S_S1600000 (constantI S_ 32 50000#32))) (srcOf e)

/-- The sum over incoming edges of the source's signal row. -/
def segSum (s : FVec F S50000x4 .f32) (e : IVec S2x1600000 32) : FVec F S50000x4 .f32 :=
  Host.scatterAdd scatter_S50000x4_S1600000x1_S1600000x4_1_0_0_1
    (broadcastInDim S50000x4 ![] bcast_S_S50000x4 (constant S_ .f32 0x00000000#32))
    (broadcastInDim S1600000x1 ![0] bcast_S1600000_S1600000x1_0 (tgtOf e))
    (Host.gather gather_S50000x4_S1600000x1_S1600000x4_1_0_n_n_0_1_14 s (broadcastInDim S1600000x1 ![0] bcast_S1600000_S1600000x1_0 (srcWrapped e)))

/-- The number of incoming edges of each node, as a float. -/
def inCount (e : IVec S2x1600000 32) : FVec F S50000 .f32 :=
  Host.scatterAdd scatter_S50000_S1600000x1_S1600000_n_0_0_1
    (broadcastInDim S50000 ![] bcast_S_S50000 (constant S_ .f32 0x00000000#32))
    (broadcastInDim S1600000x1 ![0] bcast_S1600000_S1600000x1_0 (tgtOf e))
    (broadcastInDim S1600000 ![] bcast_S_S1600000 (constant S_ .f32 0x3F800000#32))

/-- The mean of the incoming neighbours' signals; zero for a node with no incoming edge. -/
def avgOf (s : FVec F S50000x4 .f32) (e : IVec S2x1600000 32) : FVec F S50000x4 .f32 :=
  select
    (broadcastInDim S50000x4 ![0, 1] bcast_S50000x1_S50000x4_0_1
      (cmpf (F := F) .ogt (broadcastInDim S50000x1 ![0] bcast_S50000_S50000x1_0 (inCount (F := F) e))
        (broadcastInDim S50000x1 ![] bcast_S_S50000x1 (constant S_ .f32 0x00000000#32))))
    (Host.divf (segSum s e)
      (broadcastInDim S50000x4 ![0, 1] bcast_S50000x1_S50000x4_0_1
        (broadcastInDim S50000x1 ![0] bcast_S50000_S50000x1_0
          (maximumf (inCount (F := F) e) (broadcastInDim S50000 ![] bcast_S_S50000 (constant S_ .f32 0x3F800000#32))))))
    (broadcastInDim S50000x4 ![] bcast_S_S50000x4 (constant S_ .f32 0x00000000#32))

/-- The nonzero-real arrays: every entry is a real number other than zero. -/
private def AllNzReal {ι : Type} (v : ι → EReal) : Prop := ∀ i, ∃ r : ℝ, r ≠ 0 ∧ v i = (r : EReal)

/-- The float one denotes the real one. -/
private theorem ofBits_one_f32 : Ideal.ofBits .f32 0x3F800000#32 = 1 := by
  simp [Ideal.ofBits, Ideal.ieee, -EReal.coe_mul]; norm_num

/-- A finite sum of entries that are each a real number is a real number. -/
private theorem sum_isReal {ι : Type} (S : Finset ι) (f : ι → EReal) (h : AllReal f) :
    ∃ r : ℝ, ∑ j ∈ S, f j = (r : EReal) := by
  classical
  induction S using Finset.induction_on with
  | empty => exact ⟨0, by rw [Finset.sum_empty, EReal.coe_zero]⟩
  | insert a S ha ih =>
    obtain ⟨r, hr⟩ := ih
    obtain ⟨q, hq⟩ := h a
    exact ⟨q + r, by rw [Finset.sum_insert ha, hr, hq, EReal.coe_add]⟩

/-- Every entry of a gather is an entry of its operand. -/
private theorem allReal_gather {s si t : Shape} {w : Nat} (d : GatherDims s si t) (x : FVec Ideal s .f32) (idx : IVec si w)
    (h : AllReal x) : AllReal (Host.gather d x idx) :=
  fun j => h (d.operandIdx j idx)

/-- Every entry of a broadcast is an entry of its operand. -/
private theorem allReal_broadcastInDim {s t : Shape} (dims : Fin s.rank → Fin t.rank) (hb : s.BroadcastsInDim t dims)
    (x : FVec Ideal s .f32) (h : AllReal x) : AllReal (broadcastInDim t dims hb x) :=
  fun _ => h _

/-- Every entry of a broadcast is an entry of its operand, so nonzero reals stay nonzero reals. -/
private theorem allNzReal_broadcastInDim {s t : Shape} (dims : Fin s.rank → Fin t.rank) (hb : s.BroadcastsInDim t dims)
    (x : FVec Ideal s .f32) (h : AllNzReal x) : AllNzReal (broadcastInDim t dims hb x) :=
  fun _ => h _

/-- The constant array of float zeros is the real zero everywhere. -/
private theorem allReal_zero (s : Shape) : AllReal (constant (F := Ideal) s .f32 0x00000000#32) :=
  fun i => ⟨0, by rw [ValueIdx.constant_apply, Ideal.ofBits_zero_f32, EReal.coe_zero]⟩

/-- The constant array of float ones is the real one everywhere. -/
private theorem allReal_one (s : Shape) : AllReal (constant (F := Ideal) s .f32 0x3F800000#32) :=
  fun i => ⟨1, by rw [ValueIdx.constant_apply, ofBits_one_f32, EReal.coe_one]⟩

/-- An accumulating scatter of reals into reals is real: each entry is the operand's plus a finite sum of updates. -/
private theorem allReal_scatterAdd {s si su : Shape} {w : Nat} (d : ScatterDims s si su) (x : FVec Ideal s .f32)
    (idx : IVec si w) (upd : FVec Ideal su .f32) (hx : AllReal x) (hu : AllReal upd) :
    AllReal (Host.scatterAdd (F := Ideal) d x idx upd) := by
  intro i
  obtain ⟨a, ha⟩ := hx i
  unfold Host.scatterAdd
  rw [Ideal.hostScatterAdd_def]
  unfold Ideal.hostScatterAdd
  obtain ⟨b, hb⟩ := sum_isReal (Finset.univ.filter (fun j => d.resultIdx? j idx = some i)) upd hu
  exact ⟨a + b, by rw [ha, hb, EReal.coe_add]⟩

/-- The maximum of a real and one is a real at least one, hence not zero. -/
private theorem allNzReal_max_one {s : Shape} (x y : FVec Ideal s .f32) (hx : AllReal x) (hy : ∀ i, y i = 1) :
    AllNzReal (maximumf x y) := by
  intro i
  obtain ⟨a, ha⟩ := hx i
  refine ⟨max a 1, ?_, ?_⟩
  · exact ne_of_gt (lt_of_lt_of_le one_pos (le_max_right a 1))
  · rw [ValueIdx.maximumf_apply, ha, hy i, ← EReal.coe_one]
    exact (EReal.coe_strictMono.monotone.map_max).symm

/-- A real divided by a nonzero real is real: the quotient is the product with the reciprocal. -/
private theorem allReal_divf {s : Shape} (x y : FVec Ideal s .f32) (hx : AllReal x) (hy : AllNzReal y) :
    AllReal (Host.divf (F := Ideal) x y) := by
  intro i
  obtain ⟨a, ha⟩ := hx i
  obtain ⟨b, hb0, hb⟩ := hy i
  refine ⟨a * (1 / b), ?_⟩
  show Ideal.div (x i) (y i) = _
  rw [ha, hb, Ideal.div_coe hb0, EReal.coe_mul]

/-- A select reads one of its two branches at each entry, so it is real when both are. -/
private theorem allReal_select {s : Shape} (c : IVec s 1) (a b : FVec Ideal s .f32) (ha : AllReal a) (hb : AllReal b) :
    AllReal (select c a b) := by
  intro i
  rw [ValueIdx.select_apply]
  unfold Scalar.select
  split
  · exact ha i
  · exact hb i

/-- The sum of the gathered real signal rows into a zero array is real. -/
private theorem segSum_allReal (s : FVec Ideal S50000x4 .f32) (e : IVec S2x1600000 32) (hs : AllReal s) :
    AllReal (segSum (F := Ideal) s e) :=
  allReal_scatterAdd _ _ _ _ (allReal_broadcastInDim _ _ _ (allReal_zero _)) (allReal_gather _ _ _ hs)

/-- The count of incoming edges, a sum of ones into a zero vector, is real. -/
private theorem inCount_allReal (e : IVec S2x1600000 32) : AllReal (inCount (F := Ideal) e) :=
  allReal_scatterAdd _ _ _ _ (allReal_broadcastInDim _ _ _ (allReal_zero _)) (allReal_broadcastInDim _ _ _ (allReal_one _))

/-- The mean of real signals is real: a sum of finitely many reals is real, the count is a real that the maximum with
    one keeps at least one, and a real divided by a nonzero real is real. -/
theorem avgOf_allReal (s : FVec Ideal S50000x4 .f32) (e : IVec S2x1600000 32) (hs : AllReal s) :
    AllReal (avgOf (F := Ideal) s e) := by
  unfold avgOf
  refine allReal_select _ _ _ (allReal_divf _ _ (segSum_allReal s e hs) ?_)
    (allReal_broadcastInDim _ _ _ (allReal_zero _))
  refine allNzReal_broadcastInDim _ _ _ (allNzReal_broadcastInDim _ _ _ (allNzReal_max_one _ _ (inCount_allReal e) ?_))
  intro i
  show Ideal.ofBits .f32 0x3F800000#32 = 1
  exact ofBits_one_f32

end Cert.KernelIdeal.Hand

end
-- ==== Proof.Region0.lean ====
/-
  What the first kernel region leaves in its two output arrays, as whole-array functions of the arrays it finds:
  the signals tanh(x · wᵀ + b), and the first 64 features of every node.
-/
import proofs.«175520_j39204461478459_1_alg».proof.Proof.Gen.KernelIdeal.Frame
import proofs.«175520_j39204461478459_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.NodeAgg
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The signals: tanh of the row product with the weights, plus the bias -/

/-- The matmul's left index keeps the output row. -/
private theorem lhs_sig_0 (i : S5000x4.Idx) (q : dot_S5000x512_S512x4_S5000x4_1_0_0_1_n_n.contr.Idx) :
    (dot_S5000x512_S512x4_S5000x4_1_0_0_1_n_n.lhsIdx i q 0).val = (i 0).val := by
  unfold DotDims.lhsIdx
  rw [dif_neg (show ¬(0 : Fin S5000x512.rank) ∈ dot_S5000x512_S512x4_S5000x4_1_0_0_1_n_n.lhsBatch by decide), dif_pos (show (0 : Fin S5000x512.rank) ∈ dot_S5000x512_S512x4_S5000x4_1_0_0_1_n_n.lhsNonContracting by decide)]
  rfl
/-- The matmul's left index reads the contraction coordinate on its column axis. -/
private theorem lhs_sig_1 (i : S5000x4.Idx) (q : dot_S5000x512_S512x4_S5000x4_1_0_0_1_n_n.contr.Idx) :
    (dot_S5000x512_S512x4_S5000x4_1_0_0_1_n_n.lhsIdx i q 1).val = (q ⟨0, by decide⟩).val :=
  dot_S5000x512_S512x4_S5000x4_1_0_0_1_n_n.lhsIdx_val_of_single rfl i q
/-- The matmul's right index reads the contraction coordinate on its row axis. -/
private theorem rhs_sig_0 (i : S5000x4.Idx) (q : dot_S5000x512_S512x4_S5000x4_1_0_0_1_n_n.contr.Idx) :
    (dot_S5000x512_S512x4_S5000x4_1_0_0_1_n_n.rhsIdx i q 0).val = (q ⟨0, by decide⟩).val :=
  dot_S5000x512_S512x4_S5000x4_1_0_0_1_n_n.rhsIdx_val_of_single rfl i q
/-- The matmul's right index keeps the output column. -/
private theorem rhs_sig_1 (i : S5000x4.Idx) (q : dot_S5000x512_S512x4_S5000x4_1_0_0_1_n_n.contr.Idx) :
    (dot_S5000x512_S512x4_S5000x4_1_0_0_1_n_n.rhsIdx i q 1).val = (i 1).val := by
  unfold DotDims.rhsIdx
  rw [dif_neg (show ¬(1 : Fin S512x4.rank) ∈ dot_S5000x512_S512x4_S5000x4_1_0_0_1_n_n.rhsBatch by decide), dif_pos (show (1 : Fin S512x4.rank) ∈ dot_S5000x512_S512x4_S5000x4_1_0_0_1_n_n.rhsNonContracting by decide)]
  rfl

/-- A block's product with the transposed weights into the zero accumulator, at (p, q): the row product. -/
private theorem matmul_sig_apply (a : FVec Ideal S5000x512 .bf16) (b : FVec Ideal S512x4 .bf16) (p : Fin 5000) (q : Fin 4) :
    matmul dot_S5000x512_S512x4_S5000x4_1_0_0_1_n_n none a b (constant S5000x4 .f32 0x00000000#32) (ix2 p q)
      = ∑ k : Fin 512, a (ix2 p k) * b (ix2 k q) := by
  refine (Ideal.matmul_constant_zero_apply dot_S5000x512_S512x4_S5000x4_1_0_0_1_n_n none a b (ix2 p q)).trans ?_
  rw [← Equiv.sum_comp (ValueIdx.contrEquiv1 dot_S5000x512_S512x4_S5000x4_1_0_0_1_n_n 512 rfl rfl).symm]
  refine Finset.sum_congr rfl fun k _ => ?_
  have hk := ValueIdx.contrEquiv1_symm_val dot_S5000x512_S512x4_S5000x4_1_0_0_1_n_n 512 rfl rfl k
  have el : dot_S5000x512_S512x4_S5000x4_1_0_0_1_n_n.lhsIdx (ix2 p q) ((ValueIdx.contrEquiv1 dot_S5000x512_S512x4_S5000x4_1_0_0_1_n_n 512 rfl rfl).symm k) = ix2 p k := funext fun a => Fin.ext (by
    match a with
    | ⟨0, _⟩ => exact lhs_sig_0 _ _
    | ⟨1, _⟩ => exact (lhs_sig_1 _ _).trans hk)
  have er : dot_S5000x512_S512x4_S5000x4_1_0_0_1_n_n.rhsIdx (ix2 p q) ((ValueIdx.contrEquiv1 dot_S5000x512_S512x4_S5000x4_1_0_0_1_n_n 512 rfl rfl).symm k) = ix2 k q := funext fun a => Fin.ext (by
    match a with
    | ⟨0, _⟩ => exact (rhs_sig_0 _ _).trans hk
    | ⟨1, _⟩ => exact rhs_sig_1 _ _)
  rw [el, er]

/-- The body's first payload at (p, q): tanh of the row product plus the bias. -/
private theorem pay_signal_apply (x0 : Vec Ideal S5000x512 .f32) (x1 : Vec Ideal S4x512 .f32) (x2 : Vec Ideal S4 .f32) (p : Fin 5000) (q : Fin 4) :
    k0_pay1 (F := Ideal) x0 x1 x2 (ix2 p q) = Ideal.tanh ((∑ k : Fin 512, x0 (ix2 p k) * x1 (ix2 q k)) + x2 (ix1 q)) := by
  unfold k0_pay1
  show Ideal.tanh (matmul (F := Ideal) dot_S5000x512_S512x4_S5000x4_1_0_0_1_n_n none (truncf (F := Ideal) .bf16 x0 bitsLt_bf16_f32) (transpose S512x4 [1, 0] (truncf (F := Ideal) .bf16 x1 bitsLt_bf16_f32) transposes_S4x512_p1_0_S512x4) (constant (F := Ideal) S5000x4 .f32 0x00000000#32) (ix2 p q)
      + broadcastTo S5000x4 (shapeCast S1x4 x2 shapeCasts_S4_S1x4) broadcasts_S1x4_S5000x4 (ix2 p q)) = _
  rw [matmul_sig_apply]
  congr 2
  · refine Finset.sum_congr rfl fun k _ => ?_
    congr 1
    exact transpose_apply [1, 0] _ transposes_S4x512_p1_0_S512x4 (ix2 k q) (ix2 q k) (fun b => match b with
      | ⟨0, _⟩ => rfl
      | ⟨1, _⟩ => rfl)
  · refine (broadcastTo_apply _ broadcasts_S1x4_S5000x4 (ix2 p q) (ix2 (0 : Fin 1) q) (fun a => match a with
      | ⟨0, _⟩ => rfl
      | ⟨1, _⟩ => rfl)).trans ?_
    exact shapeCast_apply x2 shapeCasts_S4_S1x4 (ix2 (0 : Fin 1) q) (ix1 q) (by
      rewrite [Shape.rowMajor_val_two, Shape.rowMajor_val_one]; show q.val = 0 * 4 + q.val; omega)

/-- The zero offsets of a whole-block access at rank 2. -/
private theorem zero_off2 : (![0, 0] : Fin 2 → Nat) = fun _ => 0 := funext fun a => by fin_cases a <;> rfl
/-- The same at rank 1. -/
private theorem zero_off1 : (![0] : Fin 1 → Nat) = fun _ => 0 := funext fun a => by fin_cases a <;> rfl

/-- The block index maps over the ten grid points: the feature block and both output blocks sit at the point's own row
    block and column block 0; the weights and the bias are whole. -/
private theorem block_indices : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0
    ∧ win0_4.index t (0 : Fin 2) = win0_3.index t (0 : Fin 2) ∧ win0_4.index t (1 : Fin 2) = 0 :=
  (by decide +kernel : ∀ t : Fin grid0.N, _)

/-- Every one of the ten row blocks is some point's. -/
private theorem row_block_onto3 : ∀ q : Fin 10, ∃ t : Fin cfg0.N, win0_3.index t = ![q.val, 0] :=
  (by decide +kernel : ∀ q : Fin 10, ∃ t : Fin grid0.N, win0_3.index t = ![q.val, 0])

/-- What point t writes back to the signal array is block t of the signals of the arrays the region found. -/
private theorem signal_flushed (c : Dev nD) (t : Fin cfg0.N) :
    (dat0 (F := Ideal) V c).flushed 3 t
      = ((cfg0.win 3).blk t).view.read (Elt Ideal) (signal (V c main_arg0) (V c main_arg2) (V c main_arg3)) := by
  show (cfg0.win 3).cut (grid0.coords t) ((dat0 (F := Ideal) V c).after 3 t) = _
  rw [after0_3]
  unfold out0_3
  rw [View.canon_unit_zero zero_off2]
  simp only [View.ld_unit_zero (S := S5000x512) zero_off2, View.ld_unit_zero (S := S4x512) zero_off2, View.ld_unit_zero (S := S4) zero_off1]
  obtain ⟨e00, e01, e10, e11, e20, e31, e40, e41⟩ := block_indices t
  have e : ∀ (p : Fin 5000) (q : Fin 4),
      k0_pay1 (F := Ideal) (iblk0 V c 0 t) (iblk0 V c 1 t) (iblk0 V c 2 t) (ix2 p q)
        = signal (V c main_arg0) (V c main_arg2) (V c main_arg3) (((cfg0.win 3).blk t).view.emb (ix2 p q)) := by
    intro p q
    refine (pay_signal_apply (iblk0 V c 0 t) (iblk0 V c 1 t) (iblk0 V c 2 t) p q).trans ?_
    unfold signal signalAt
    refine congrArg Ideal.tanh (congrArg₂ (· + ·) (Finset.sum_congr rfl fun k _ => congrArg₂ (· * ·) ?_ ?_) ?_)
    · refine congrArg (V c main_arg0) (funext fun a => Fin.ext ?_)
      match a with
      | ⟨0, _⟩ => show win0_0.index t (0 : Fin 2) * 5000 + 1 * p.val = win0_3.index t (0 : Fin 2) * 5000 + 1 * p.val; omega
      | ⟨1, _⟩ => show win0_0.index t (1 : Fin 2) * 512 + 1 * k.val = k.val; omega
    · refine congrArg (V c main_arg2) (funext fun a => Fin.ext ?_)
      match a with
      | ⟨0, _⟩ => show win0_1.index t (0 : Fin 2) * 4 + 1 * q.val = win0_3.index t (1 : Fin 2) * 4 + 1 * q.val; omega
      | ⟨1, _⟩ => show win0_1.index t (1 : Fin 2) * 512 + 1 * k.val = k.val; omega
    · refine congrArg (V c main_arg3) (funext fun a => Fin.ext ?_)
      match a with
      | ⟨0, _⟩ => show win0_2.index t (0 : Fin 1) * 4 + 1 * q.val = win0_3.index t (1 : Fin 2) * 4 + 1 * q.val; omega
  funext j
  exact (congrArg (k0_pay1 (F := Ideal) (iblk0 V c 0 t) (iblk0 V c 1 t) (iblk0 V c 2 t)) (eq_ix2 j)).trans ((e (j 0) (j 1)).trans
    (congrArg (fun y => signal (V c main_arg0) (V c main_arg2) (V c main_arg3) (((cfg0.win 3).blk t).view.emb y)) (eq_ix2 j).symm))

/-- An index of the signal array is in point t's block iff each coordinate is in the block's range on its axis. -/
private theorem mem_signal_block (t : Fin cfg0.N) (i : S50000x4.Idx) :
    i ∈ ((cfg0.win 3).blk t).view.set ↔ ∀ a : Fin 2, win0_3.index t a * S5000x4.size a ≤ (i a).val ∧ (i a).val < win0_3.index t a * S5000x4.size a + S5000x4.size a := by
  show i ∈ ((View.whole main_v0_0).slice (win0_3.rect t)).set ↔ _
  rw [View.set_slice_whole, Rect.mem_set_unit]
  exact Iff.rfl

/-- The ten row blocks tile the signal array: node row r is in block r / 5000. -/
private theorem signal_cover (i : S50000x4.Idx) :
    ∃ t : Fin cfg0.N, (cfg0.win 3).flush t = true ∧ i ∈ ((cfg0.win 3).blk t).view.set := by
  have hi0 : (i 0).val < 50000 := (i 0).isLt
  have hi1 : (i 1).val < 4 := (i 1).isLt
  obtain ⟨t, ht⟩ := row_block_onto3 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_signal_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 4 ≤ (i 1).val ∧ (i 1).val < win0_3.index t (1 : Fin 2) * 4 + 4; omega

/-- After the region the signal array holds tanh(x · wᵀ + b) of the arrays the region found. -/
theorem signal_final (c : Dev nD) :
    (dat0 (F := Ideal) V c).arrAt 3 cfg0.N = signal (V c main_arg0) (V c main_arg2) (V c main_arg3) :=
  (dat0 (F := Ideal) V c).arrAt_eq_of_cover 3 (signal (V c main_arg0) (V c main_arg2) (V c main_arg3))
    (fun t _ => signal_flushed V c t) signal_cover

/-! ## The narrow features: the first 64 columns of every node row -/

/-- The body's second payload at (p, f): the block's entry at the same row and column, the column read among the 512. -/
private theorem pay_slice_apply (x0 : Vec Ideal S5000x512 .f32) (p : Fin 5000) (f : Fin 64) :
    k0_pay2 (F := Ideal) x0 (ix2 p f) = x0 (ix2 p (Fin.castLE (n := 64) (m := 512) (by decide) f)) := by
  unfold k0_pay2
  exact extractStridedSlice_apply ![0, 0] x0 slices_S5000x512_o0_0_S5000x64 (ix2 p f)
    (ix2 p (Fin.castLE (n := 64) (m := 512) (by decide) f)) (fun a => match a with
    | ⟨0, _⟩ => by show p.val = 0 + p.val; omega
    | ⟨1, _⟩ => by show f.val = 0 + f.val; omega)

/-- Every one of the ten row blocks of the narrow feature array is some point's. -/
private theorem row_block_onto4 : ∀ q : Fin 10, ∃ t : Fin cfg0.N, win0_4.index t = ![q.val, 0] :=
  (by decide +kernel : ∀ q : Fin 10, ∃ t : Fin grid0.N, win0_4.index t = ![q.val, 0])

/-- What point t writes back to the narrow feature array is block t of the first 64 columns of x. -/
private theorem slice_flushed (c : Dev nD) (t : Fin cfg0.N) :
    (dat0 (F := Ideal) V c).flushed 4 t
      = ((cfg0.win 4).blk t).view.read (Elt Ideal) (slice64 (V c main_arg0)) := by
  show (cfg0.win 4).cut (grid0.coords t) ((dat0 (F := Ideal) V c).after 4 t) = _
  rw [after0_4]
  unfold out0_4
  rw [View.canon_unit_zero zero_off2]
  simp only [View.ld_unit_zero (S := S5000x512) zero_off2]
  obtain ⟨e00, e01, -, -, -, -, e40, e41⟩ := block_indices t
  have e : ∀ (p : Fin 5000) (f : Fin 64),
      k0_pay2 (F := Ideal) (iblk0 V c 0 t) (ix2 p f)
        = slice64 (V c main_arg0) (((cfg0.win 4).blk t).view.emb (ix2 p f)) := by
    intro p f
    refine (pay_slice_apply (iblk0 V c 0 t) p f).trans ?_
    unfold slice64
    refine congrArg (V c main_arg0) (funext fun a => Fin.ext ?_)
    match a with
    | ⟨0, _⟩ => show win0_0.index t (0 : Fin 2) * 5000 + 1 * p.val = win0_4.index t (0 : Fin 2) * 5000 + 1 * p.val; omega
    | ⟨1, _⟩ => show win0_0.index t (1 : Fin 2) * 512 + 1 * f.val = win0_4.index t (1 : Fin 2) * 64 + 1 * f.val; omega
  funext j
  exact (congrArg (k0_pay2 (F := Ideal) (iblk0 V c 0 t)) (eq_ix2 j)).trans ((e (j 0) (j 1)).trans
    (congrArg (fun y => slice64 (V c main_arg0) (((cfg0.win 4).blk t).view.emb y)) (eq_ix2 j).symm))

/-- An index of the narrow feature array is in point t's block iff each coordinate is in the block's range on its axis. -/
private theorem mem_slice_block (t : Fin cfg0.N) (i : S50000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v0_1).slice (win0_4.rect t)).set ↔ _
  rw [View.set_slice_whole, Rect.mem_set_unit]
  exact Iff.rfl

/-- The ten row blocks tile the narrow feature array: node row r is in block r / 5000. -/
private theorem slice_cover (i : S50000x64.Idx) :
    ∃ t : Fin cfg0.N, (cfg0.win 4).flush t = true ∧ i ∈ ((cfg0.win 4).blk t).view.set := by
  have hi0 : (i 0).val < 50000 := (i 0).isLt
  have hi1 : (i 1).val < 64 := (i 1).isLt
  obtain ⟨t, ht⟩ := row_block_onto4 ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_slice_block]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- After the region the narrow feature array holds the first 64 columns of x. -/
theorem slice_final (c : Dev nD) :
    (dat0 (F := Ideal) V c).arrAt 4 cfg0.N = slice64 (V c main_arg0) :=
  (dat0 (F := Ideal) V c).arrAt_eq_of_cover 4 (slice64 (V c main_arg0))
    (fun t _ => slice_flushed V c t) slice_cover

end Cert.KernelIdeal.Hand

end
-- ==== Proof.Region1.lean ====
/-
  What the second kernel region leaves in its output array, as a whole-array function of the arrays it finds:
  out[n, f, o] = max(xs[n, f] · (∑_c avg[n, c] · W[o, c]) + bias[o], 0).
-/
import proofs.«175520_j39204461478459_1_alg».proof.Proof.Gen.KernelIdeal.Frame
import proofs.«175520_j39204461478459_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.NodeAgg
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The block product avg · Wᵀ read at an index -/

private theorem lhs_aggDot_0 (i : S400x64.Idx) (q : dot_S400x4_S4x64_S400x64_1_0_0_1_n_n.contr.Idx) :
    (dot_S400x4_S4x64_S400x64_1_0_0_1_n_n.lhsIdx i q 0).val = (i 0).val := by
  unfold DotDims.lhsIdx
  rw [dif_neg (show ¬(0 : Fin S400x4.rank) ∈ dot_S400x4_S4x64_S400x64_1_0_0_1_n_n.lhsBatch by decide), dif_pos (show (0 : Fin S400x4.rank) ∈ dot_S400x4_S4x64_S400x64_1_0_0_1_n_n.lhsNonContracting by decide)]
  rfl
private theorem lhs_aggDot_1 (i : S400x64.Idx) (q : dot_S400x4_S4x64_S400x64_1_0_0_1_n_n.contr.Idx) :
    (dot_S400x4_S4x64_S400x64_1_0_0_1_n_n.lhsIdx i q 1).val = (q ⟨0, by decide⟩).val :=
  dot_S400x4_S4x64_S400x64_1_0_0_1_n_n.lhsIdx_val_of_single rfl i q
private theorem rhs_aggDot_0 (i : S400x64.Idx) (q : dot_S400x4_S4x64_S400x64_1_0_0_1_n_n.contr.Idx) :
    (dot_S400x4_S4x64_S400x64_1_0_0_1_n_n.rhsIdx i q 0).val = (q ⟨0, by decide⟩).val :=
  dot_S400x4_S4x64_S400x64_1_0_0_1_n_n.rhsIdx_val_of_single rfl i q
private theorem rhs_aggDot_1 (i : S400x64.Idx) (q : dot_S400x4_S4x64_S400x64_1_0_0_1_n_n.contr.Idx) :
    (dot_S400x4_S4x64_S400x64_1_0_0_1_n_n.rhsIdx i q 1).val = (i 1).val := by
  unfold DotDims.rhsIdx
  rw [dif_neg (show ¬(1 : Fin S4x64.rank) ∈ dot_S400x4_S4x64_S400x64_1_0_0_1_n_n.rhsBatch by decide), dif_pos (show (1 : Fin S4x64.rank) ∈ dot_S400x4_S4x64_S400x64_1_0_0_1_n_n.rhsNonContracting by decide)]
  rfl

/-- The product of a block of averages with the transposed weights, into the zero accumulator, at row p and
    column o: the sum over the four signal channels of the products. -/
private theorem aggDot_apply (a : FVec Ideal S400x4 .bf16) (w : FVec Ideal S4x64 .bf16) (p : Fin 400) (o : Fin 64) :
    matmul dot_S400x4_S4x64_S400x64_1_0_0_1_n_n none a w (constant S400x64 .f32 0x00000000#32) (ix2 p o)
      = ∑ k : Fin 4, a (ix2 p k) * w (ix2 k o) := by
  refine (Ideal.matmul_constant_zero_apply dot_S400x4_S4x64_S400x64_1_0_0_1_n_n none a w (ix2 p o)).trans ?_
  rw [← Equiv.sum_comp (ValueIdx.contrEquiv1 dot_S400x4_S4x64_S400x64_1_0_0_1_n_n 4 rfl rfl).symm]
  refine Finset.sum_congr rfl fun k _ => ?_
  have hk := ValueIdx.contrEquiv1_symm_val dot_S400x4_S4x64_S400x64_1_0_0_1_n_n 4 rfl rfl k
  have el : dot_S400x4_S4x64_S400x64_1_0_0_1_n_n.lhsIdx (ix2 p o) ((ValueIdx.contrEquiv1 dot_S400x4_S4x64_S400x64_1_0_0_1_n_n 4 rfl rfl).symm k) = ix2 p k := funext fun a => Fin.ext (by
    match a with
    | ⟨0, _⟩ => exact lhs_aggDot_0 _ _
    | ⟨1, _⟩ => exact (lhs_aggDot_1 _ _).trans hk)
  have er : dot_S400x4_S4x64_S400x64_1_0_0_1_n_n.rhsIdx (ix2 p o) ((ValueIdx.contrEquiv1 dot_S400x4_S4x64_S400x64_1_0_0_1_n_n 4 rfl rfl).symm k) = ix2 k o := funext fun a => Fin.ext (by
    match a with
    | ⟨0, _⟩ => exact (rhs_aggDot_0 _ _).trans hk
    | ⟨1, _⟩ => exact rhs_aggDot_1 _ _)
  rw [el, er]

/-! ## The keep-dimension casts and the broadcasts of the body read at an index -/

/-- A [400,64] block cast to [400,64,1] reads, at (p, f, u), the operand at (p, f). -/
private theorem cast_trailingUnit_apply {α : Type} (x : S400x64.Idx → α) (h : S400x64.ShapeCasts S400x64x1) (p : Fin 400) (f : Fin 64) (u : Fin 1) :
    shapeCast S400x64x1 x h (ix3 p f u) = x (ix2 p f) :=
  shapeCast_apply x h _ _ (by
    have hu : u.val = 0 := by omega
    rw [Shape.rowMajor_val_three, Shape.rowMajor_val_two]
    show p.val * 64 + f.val = (p.val * 64 + f.val) * 1 + u.val
    omega)

/-- A [400,64] block cast to [400,1,64] reads, at (p, u, o), the operand at (p, o). -/
private theorem cast_middleUnit_apply {α : Type} (x : S400x64.Idx → α) (h : S400x64.ShapeCasts S400x1x64) (p : Fin 400) (u : Fin 1) (o : Fin 64) :
    shapeCast S400x1x64 x h (ix3 p u o) = x (ix2 p o) :=
  shapeCast_apply x h _ _ (by
    have hu : u.val = 0 := by omega
    rw [Shape.rowMajor_val_three, Shape.rowMajor_val_two]
    show p.val * 64 + o.val = (p.val * 1 + u.val) * 64 + o.val
    omega)

/-- A [64] vector cast to [1,1,64] reads, at (u, v, o), the operand at o. -/
private theorem cast_leadingUnits_apply {α : Type} (x : S64.Idx → α) (h : S64.ShapeCasts S1x1x64) (u v : Fin 1) (o : Fin 64) :
    shapeCast S1x1x64 x h (ix3 u v o) = x (ix1 o) :=
  shapeCast_apply x h _ _ (by
    have hu : u.val = 0 := by omega
    have hv : v.val = 0 := by omega
    rw [Shape.rowMajor_val_three, Shape.rowMajor_val_one]
    show o.val = (u.val * 1 + v.val) * 64 + o.val
    omega)

/-- A [400,64,1] array broadcast along its last axis reads, at (p, f, o), the operand at (p, f, 0). -/
private theorem bcast_lastAxis_apply {α : Type} (x : S400x64x1.Idx → α) (h : S400x64x1.Broadcasts S400x64x64) (p : Fin 400) (f o : Fin 64) :
    broadcastTo S400x64x64 x h (ix3 p f o) = x (ix3 p f (0 : Fin 1)) :=
  broadcastTo_apply x h (ix3 p f o) (ix3 p f (0 : Fin 1)) fun a => by
    match a with
    | ⟨0, _⟩ => show p.val = if (400 : ℕ) = 1 then 0 else p.val; rw [if_neg (by decide)]
    | ⟨1, _⟩ => show f.val = if (64 : ℕ) = 1 then 0 else f.val; rw [if_neg (by decide)]
    | ⟨2, _⟩ => rfl

/-- A [400,1,64] array broadcast along its middle axis reads, at (p, f, o), the operand at (p, 0, o). -/
private theorem bcast_middleAxis_apply {α : Type} (x : S400x1x64.Idx → α) (h : S400x1x64.Broadcasts S400x64x64) (p : Fin 400) (f o : Fin 64) :
    broadcastTo S400x64x64 x h (ix3 p f o) = x (ix3 p (0 : Fin 1) o) :=
  broadcastTo_apply x h (ix3 p f o) (ix3 p (0 : Fin 1) o) fun a => by
    match a with
    | ⟨0, _⟩ => show p.val = if (400 : ℕ) = 1 then 0 else p.val; rw [if_neg (by decide)]
    | ⟨1, _⟩ => rfl
    | ⟨2, _⟩ => show o.val = if (64 : ℕ) = 1 then 0 else o.val; rw [if_neg (by decide)]

/-- A [1,1,64] array broadcast along its two unit axes reads, at (p, f, o), the operand at (0, 0, o). -/
private theorem bcast_leadingAxes_apply {α : Type} (x : S1x1x64.Idx → α) (h : S1x1x64.Broadcasts S400x64x64) (p : Fin 400) (f o : Fin 64) :
    broadcastTo S400x64x64 x h (ix3 p f o) = x (ix3 (0 : Fin 1) (0 : Fin 1) o) :=
  broadcastTo_apply x h (ix3 p f o) (ix3 (0 : Fin 1) (0 : Fin 1) o) fun a => by
    match a with
    | ⟨0, _⟩ => rfl
    | ⟨1, _⟩ => rfl
    | ⟨2, _⟩ => show o.val = if (64 : ℕ) = 1 then 0 else o.val; rw [if_neg (by decide)]

/-! ## The body's payload at an index -/

/-- The body's result at row p, feature f, output channel o: the feature scaled by the row's average signal
    against the channel's weights, plus the channel's bias, cut below at zero. -/
private theorem aggPayload_apply (x0 : Vec Ideal S400x64 .f32) (x1 : Vec Ideal S400x4 .f32) (x2 : Vec Ideal S64x4 .f32) (x3 : Vec Ideal S64 .f32)
    (p : Fin 400) (f o : Fin 64) :
    k1_pay1 x0 x1 x2 x3 (ix3 p f o)
      = max (x0 (ix2 p f) * (∑ k : Fin 4, x1 (ix2 p k) * x2 (ix2 o k)) + x3 (ix1 o)) zeroF := by
  unfold k1_pay1
  simp only [maximumf_apply, addf_apply, mulf_apply, broadcast_apply]
  rw [bcast_lastAxis_apply, bcast_middleAxis_apply, bcast_leadingAxes_apply, cast_trailingUnit_apply, cast_middleUnit_apply,
    cast_leadingUnits_apply, aggDot_apply]
  rw [shapeCast_self, shapeCast_self]
  refine congrArg (fun s => max (x0 (ix2 p f) * s + x3 (ix1 o)) zeroF) (Finset.sum_congr rfl fun k _ => ?_)
  exact congrArg (x1 (ix2 p k) * ·)
    (transpose_ix2_apply (truncf .bf16 x2 bitsLt_bf16_f32 : FVec Ideal S64x4 .bf16) transposes_S64x4_p1_0_S4x64 k o)

/-! ## From the blocks to the array -/

private theorem zeros3 : (![0, 0, 0] : Fin 3 → Nat) = fun _ => 0 := funext fun a => by fin_cases a <;> rfl
private theorem zeros2 : (![0, 0] : Fin 2 → Nat) = fun _ => 0 := funext fun a => by fin_cases a <;> rfl
private theorem zeros1 : (![0] : Fin 1 → Nat) = fun _ => 0 := funext fun a => by fin_cases a <;> rfl

/-- The windows' block indices, decided over the grid: the two row-blocked inputs move with the output along the
    node rows, every other block index is zero, and the output's row-block index stays below 125. -/
private theorem blockIdx_facts : ∀ t : Fin cfg1.N,
    win1_0.index t (0 : Fin 2) = win1_4.index t (0 : Fin 3) ∧ win1_0.index t (1 : Fin 2) = 0
    ∧ win1_1.index t (0 : Fin 2) = win1_4.index t (0 : Fin 3) ∧ win1_1.index t (1 : Fin 2) = 0
    ∧ win1_2.index t (0 : Fin 2) = 0 ∧ win1_2.index t (1 : Fin 2) = 0
    ∧ win1_3.index t (0 : Fin 1) = 0
    ∧ win1_4.index t (1 : Fin 3) = 0 ∧ win1_4.index t (2 : Fin 3) = 0
    ∧ win1_4.index t (0 : Fin 3) ≤ 124 :=
  (by decide +kernel : ∀ t : Fin grid1.N, _)

/-- Every row block of the output is some point's. -/
private theorem blockIdx_onto : ∀ q : Fin 125, ∃ t : Fin cfg1.N, win1_4.index t = ![q.val, 0, 0] :=
  (by decide +kernel : ∀ q : Fin 125, ∃ t : Fin grid1.N, win1_4.index t = ![q.val, 0, 0])

/-- A point's feature block at (p, f) is the array at the row the block's index places p in, feature f. -/
private theorem xsBlock_apply (c : Dev nD) (t : Fin cfg1.N) (y : S400x64.Idx) (i : S50000x64.Idx)
    (h0 : (i 0).val = win1_0.index t (0 : Fin 2) * 400 + 1 * (y 0).val)
    (h1 : (i 1).val = win1_0.index t (1 : Fin 2) * 64 + 1 * (y 1).val) :
    iblk1 V c 0 t y = V c main_v0_1 i := by
  have h : ((cfg1.win 0).blk t).view.emb y = i := funext fun a => Fin.ext (by
    match a with
    | ⟨0, _⟩ => exact h0.symm
    | ⟨1, _⟩ => exact h1.symm)
  show V c main_v0_1 (((cfg1.win 0).blk t).view.emb y) = V c main_v0_1 i
  rw [h]

/-- A point's block of averages at (p, k) is the array at the row the block's index places p in, channel k. -/
private theorem avgBlock_apply (c : Dev nD) (t : Fin cfg1.N) (y : S400x4.Idx) (i : S50000x4.Idx)
    (h0 : (i 0).val = win1_1.index t (0 : Fin 2) * 400 + 1 * (y 0).val)
    (h1 : (i 1).val = win1_1.index t (1 : Fin 2) * 4 + 1 * (y 1).val) :
    iblk1 V c 1 t y = V c main_v27 i := by
  have h : ((cfg1.win 1).blk t).view.emb y = i := funext fun a => Fin.ext (by
    match a with
    | ⟨0, _⟩ => exact h0.symm
    | ⟨1, _⟩ => exact h1.symm)
  show V c main_v27 (((cfg1.win 1).blk t).view.emb y) = V c main_v27 i
  rw [h]

/-- The weights' one block is the whole array. -/
private theorem wBlock_apply (c : Dev nD) (t : Fin cfg1.N) (y : S64x4.Idx) (i : S64x4.Idx)
    (h0 : (i 0).val = win1_2.index t (0 : Fin 2) * 64 + 1 * (y 0).val)
    (h1 : (i 1).val = win1_2.index t (1 : Fin 2) * 4 + 1 * (y 1).val) :
    iblk1 V c 2 t y = V c main_arg4 i := by
  have h : ((cfg1.win 2).blk t).view.emb y = i := funext fun a => Fin.ext (by
    match a with
    | ⟨0, _⟩ => exact h0.symm
    | ⟨1, _⟩ => exact h1.symm)
  show V c main_arg4 (((cfg1.win 2).blk t).view.emb y) = V c main_arg4 i
  rw [h]

/-- The bias's one block is the whole vector. -/
private theorem biasBlock_apply (c : Dev nD) (t : Fin cfg1.N) (y : S64.Idx) (i : S64.Idx)
    (h0 : (i 0).val = win1_3.index t (0 : Fin 1) * 64 + 1 * (y 0).val) :
    iblk1 V c 3 t y = V c main_arg5 i := by
  have h : ((cfg1.win 3).blk t).view.emb y = i := funext fun a => Fin.ext (by
    match a with
    | ⟨0, _⟩ => exact h0.symm)
  show V c main_arg5 (((cfg1.win 3).blk t).view.emb y) = V c main_arg5 i
  rw [h]

/-- What a point writes back is its block of the closed form of the arrays the region found. -/
private theorem flushed_eq (c : Dev nD) (t : Fin cfg1.N) :
    (dat1 (F := Ideal) V c).flushed 4 t
      = ((cfg1.win 4).blk t).view.read (Elt Ideal) (aggK (V c main_v0_1) (V c main_v27) (V c main_arg4) (V c main_arg5)) := by
  show (cfg1.win 4).cut (grid1.coords t) ((dat1 V c).after 4 t) = _
  rw [after1_4]
  unfold out1_4
  rw [View.canon_unit_zero zeros3]
  simp only [View.ld_unit_zero (S := S400x64) zeros2, View.ld_unit_zero (S := S400x4) zeros2,
    View.ld_unit_zero (S := S64x4) zeros2, View.ld_unit_zero (S := S64) zeros1]
  obtain ⟨e00, e01, e10, e11, e20, e21, e30, e41, e42, -⟩ := blockIdx_facts t
  refine funext fun (j : S400x64x64.Idx) => ?_
  show k1_pay1 (iblk1 V c 0 t) (iblk1 V c 1 t) (iblk1 V c 2 t) (iblk1 V c 3 t) j
      = aggK (V c main_v0_1) (V c main_v27) (V c main_arg4) (V c main_arg5) (((cfg1.win 4).blk t).view.emb j)
  refine (congrArg (k1_pay1 (iblk1 V c 0 t) (iblk1 V c 1 t) (iblk1 V c 2 t) (iblk1 V c 3 t)) (eq_ix3 j)).trans ?_
  refine (aggPayload_apply (iblk1 V c 0 t) (iblk1 V c 1 t) (iblk1 V c 2 t) (iblk1 V c 3 t) (j 0) (j 1) (j 2)).trans ?_
  unfold aggK
  refine congrArg₂ (fun a b => max (a + b) zeroF)
    (congrArg₂ (· * ·) (xsBlock_apply V c t _ _ ?_ ?_)
      (Finset.sum_congr rfl fun k _ => congrArg₂ (· * ·) (avgBlock_apply V c t _ _ ?_ ?_) (wBlock_apply V c t _ _ ?_ ?_)))
    (biasBlock_apply V c t _ _ ?_)
  · show win1_4.index t (0 : Fin 3) * 400 + 1 * (j 0).val = win1_0.index t (0 : Fin 2) * 400 + 1 * (j 0).val; omega
  · show win1_4.index t (1 : Fin 3) * 64 + 1 * (j 1).val = win1_0.index t (1 : Fin 2) * 64 + 1 * (j 1).val; omega
  · show win1_4.index t (0 : Fin 3) * 400 + 1 * (j 0).val = win1_1.index t (0 : Fin 2) * 400 + 1 * (j 0).val; omega
  · show k.val = win1_1.index t (1 : Fin 2) * 4 + 1 * k.val; omega
  · show win1_4.index t (2 : Fin 3) * 64 + 1 * (j 2).val = win1_2.index t (0 : Fin 2) * 64 + 1 * (j 2).val; omega
  · show k.val = win1_2.index t (1 : Fin 2) * 4 + 1 * k.val; omega
  · show win1_4.index t (2 : Fin 3) * 64 + 1 * (j 2).val = win1_3.index t (0 : Fin 1) * 64 + 1 * (j 2).val; omega

/-- An index of the result array is in a point's block iff each coordinate is in the block's range on its axis. -/
private theorem mem_block (t : Fin cfg1.N) (i : S50000x64x64.Idx) :
    i ∈ ((cfg1.win 4).blk t).view.set ↔ ∀ a : Fin 3, win1_4.index t a * S400x64x64.size a ≤ (i a).val
      ∧ (i a).val < win1_4.index t a * S400x64x64.size a + S400x64x64.size a := by
  show i ∈ ((View.whole main_v28).slice (win1_4.rect t)).set ↔ _
  rw [View.set_slice_whole, Rect.mem_set_unit]
  exact Iff.rfl

/-- The 125 row blocks of 400 node rows tile the result array: node row r is in block r / 400. -/
private theorem blocks_cover (i : S50000x64x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hi2 : (i 2).val < 64 := (i 2).isLt
  obtain ⟨t, ht⟩ := blockIdx_onto ⟨(i 0).val / 400, by omega⟩
  have q0 : win1_4.index t (0 : Fin 3) = (i 0).val / 400 := congrFun ht 0
  have q1 : win1_4.index t (1 : Fin 3) = 0 := congrFun ht 1
  have q2 : win1_4.index t (2 : Fin 3) = 0 := congrFun ht 2
  refine ⟨t, flush1_4 t, ?_⟩
  rw [mem_block]
  intro a
  match a with
  | ⟨0, _⟩ => show win1_4.index t (0 : Fin 3) * 400 ≤ (i 0).val ∧ (i 0).val < win1_4.index t (0 : Fin 3) * 400 + 400; omega
  | ⟨1, _⟩ => show win1_4.index t (1 : Fin 3) * 64 ≤ (i 1).val ∧ (i 1).val < win1_4.index t (1 : Fin 3) * 64 + 64; omega
  | ⟨2, _⟩ => show win1_4.index t (2 : Fin 3) * 64 ≤ (i 2).val ∧ (i 2).val < win1_4.index t (2 : Fin 3) * 64 + 64; omega

/-- After the region the result array holds the kernel's arrangement of the arrays the region found. -/
theorem agg_final (c : Dev nD) :
    (dat1 (F := Ideal) V c).arrAt 4 cfg1.N = aggK (V c main_v0_1) (V c main_v27) (V c main_arg4) (V c main_arg5) :=
  (dat1 (F := Ideal) V c).arrAt_eq_of_cover 4 (aggK (V c main_v0_1) (V c main_v27) (V c main_arg4) (V c main_arg5))
    (fun t _ => flushed_eq V c t) blocks_cover

end Cert.KernelIdeal.Hand

end
-- ==== Proof.HostMid.lean ====
/-
  The host stretch between the two kernel regions: it reads the signal array the first region left and the edge list,
  writes the mean of the incoming neighbours' signals, and touches neither the narrow feature array nor an argument.
-/
import proofs.«175520_j39204461478459_1_alg».proof.Proof.Gen.KernelIdeal.Frame
import proofs.«175520_j39204461478459_1_alg».proof.Proof.AvgChain
import Idealize.ShloMosaic.Lib.StableHlo.Run

set_option maxRecDepth 16384

noncomputable section

namespace Cert.KernelIdeal.Hand

open Cert.KernelIdeal Cert.KernelIdeal.Gen Cert.NodeAgg
open Idealize.ShloMosaic Idealize.ShloMosaic.TcCoe Idealize.SL.Sem

set_option maxHeartbeats 1000000 in
/-- Whatever the buffers hold when the stretch starts, after it the mean buffer holds the mean chain of what the signal
    buffer and the edge list held: the stretch's operations composed, for any float values. -/
theorem avg_after {F : FTy → Type} [FloatOps F] (W : Valuation τ sig (Elt F)) :
    StableHlo.after hostOps1_1 (StableHlo.after hostOps1 W) (Proc.devRef .tc main_v27)
      = avgOf (F := F) (W (Proc.devRef .tc main_v0_0)) (W (Proc.devRef .tc main_arg1)) := by
  after_results_simp
  simp only [StableHlo.TRef.ofBuf, StableHlo.TRef.toBuf, cast_eq]
  unfold avgOf segSum inCount srcWrapped srcOf tgtOf
  rfl

variable (m : (ℓ : Loc nD τ sig) → Buf (Elt Ideal) ℓ) (ρ : Dev nD → PrngReg)

/-- A buffer none of the stretch's operations writes holds after the stretch what it held before. -/
local macro "no_op_writes" : tactic =>
  `(tactic| (refine List.forall_iff_forall_mem.mp ?_
             simp only [hostOps1, hostOps1_1, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- The stretch keeps a buffer it does not write: from the second region's entry back to the first region's exit. -/
theorem W3_of_not_written (c : Dev nD) (b : Ref sig .tc)
    (h1 : ∀ op ∈ (hostOps1_1 : List (HloOp τ sig (Elt Ideal))), Proc.devRef .tc b ∉ op.writes)
    (h0 : ∀ op ∈ (hostOps1 : List (HloOp τ sig (Elt Ideal))), Proc.devRef .tc b ∉ op.writes) :
    W3 m ρ c (Proc.devRef .tc b) = W1 m ρ c (Proc.devRef .tc b) :=
  (StableHlo.after_of_forall_not_mem (b := Proc.devRef .tc b) _ _ h1).trans
    (StableHlo.after_of_forall_not_mem (b := Proc.devRef .tc b) _ _ h0)

/-- The edge list is an argument no region stages: the first region's exit has it as launched. -/
theorem W1_edges (c : Dev nD) : W1 m ρ c (Proc.devRef .tc main_arg1) = m ((c : Thread nD τ).loc main_arg1) :=
  (W1_of_ne m ρ c main_arg1 (by decide)).trans rfl

/-- The second region finds, as its mean array, the mean chain of the signal array the first region left. -/
theorem V3_avg (c : Dev nD) :
    V3 m ρ c main_v27 = avgOf (F := Ideal) (V1 m ρ c main_v0_0) (m ((c : Thread nD τ).loc main_arg1)) := by
  rw [← W1_edges m ρ c]
  exact avg_after (F := Ideal) (W1 m ρ c)

/-- No host operation writes the narrow feature array. -/
theorem V3_xs (c : Dev nD) : V3 m ρ c main_v0_1 = V1 m ρ c main_v0_1 :=
  W3_of_not_written m ρ c main_v0_1 (by no_op_writes) (by no_op_writes)

/-- No host operation and no region writes the output weights. -/
theorem V3_arg4 (c : Dev nD) : V3 m ρ c main_arg4 = m ((c : Thread nD τ).loc main_arg4) :=
  (W3_of_not_written m ρ c main_arg4 (by no_op_writes) (by no_op_writes)).trans
    ((W1_of_ne m ρ c main_arg4 (by decide)).trans rfl)

/-- No host operation and no region writes the output bias. -/
theorem V3_arg5 (c : Dev nD) : V3 m ρ c main_arg5 = m ((c : Thread nD τ).loc main_arg5) :=
  (W3_of_not_written m ρ c main_arg5 (by no_op_writes) (by no_op_writes)).trans
    ((W1_of_ne m ρ c main_arg5 (by decide)).trans rfl)

end Cert.KernelIdeal.Hand

end
-- ==== Proof.KernelValue.lean ====
/-
  The kernel program's result as one function of its arguments: the second region's arrangement of the narrow features
  (the first region's slice of x) and of the mean chain of the first region's signals.
-/
import proofs.«175520_j39204461478459_1_alg».proof.Proof.Gen.KernelIdeal.Frame
import proofs.«175520_j39204461478459_1_alg».proof.Proof.Spec
import proofs.«175520_j39204461478459_1_alg».proof.Proof.AvgChain
import proofs.«175520_j39204461478459_1_alg».proof.Proof.Region0
import proofs.«175520_j39204461478459_1_alg».proof.Proof.Region1
import proofs.«175520_j39204461478459_1_alg».proof.Proof.HostMid

set_option maxRecDepth 16384

noncomputable section

namespace Cert.KernelIdeal.Hand

open Cert.KernelIdeal Cert.KernelIdeal.Gen Cert.NodeAgg
open Idealize.ShloMosaic Idealize.ShloMosaic.TcCoe Idealize.SL.Sem

variable (m : (ℓ : Loc nD τ sig) → Buf (Elt Ideal) ℓ) (ρ : Dev nD → PrngReg)

/-- The signal array at the first region's exit is the signal function of the arguments as launched. -/
theorem V1_signal (c : Dev nD) :
    V1 m ρ c main_v0_0
      = signal (m ((c : Thread nD τ).loc main_arg0)) (m ((c : Thread nD τ).loc main_arg2)) (m ((c : Thread nD τ).loc main_arg3)) :=
  (hF0 m ρ c 3).symm.trans (signal_final (V0 m ρ) c)

/-- The narrow feature array at the first region's exit is the first 64 columns of x as launched. -/
theorem V1_slice (c : Dev nD) : V1 m ρ c main_v0_1 = slice64 (m ((c : Thread nD τ).loc main_arg0)) :=
  (hF0 m ρ c 4).symm.trans (slice_final (V0 m ρ) c)

/-- The result buffer at the last boundary is the kernel's arrangement of the arguments. -/
theorem kernel_value (c : Dev nD) :
    W4 m ρ c (Proc.devRef .tc main_v28)
      = aggK (slice64 (m ((c : Thread nD τ).loc main_arg0)))
          (avgOf (F := Ideal) (signal (m ((c : Thread nD τ).loc main_arg0)) (m ((c : Thread nD τ).loc main_arg2)) (m ((c : Thread nD τ).loc main_arg3)))
            (m ((c : Thread nD τ).loc main_arg1)))
          (m ((c : Thread nD τ).loc main_arg4)) (m ((c : Thread nD τ).loc main_arg5)) := by
  refine (W4_arr m ρ c 4).trans ((agg_final (V3 m ρ) c).trans ?_)
  rw [V3_xs m ρ c, V3_avg m ρ c, V3_arg4 m ρ c, V3_arg5 m ρ c, V1_signal m ρ c, V1_slice m ρ c]

end Cert.KernelIdeal.Hand

end
-- ==== Proof.RefValue.lean ====
/-
  The reference program read at an index: its signal stage is tanh(x · wᵀ + b), its mean stage is the same chain of
  host operations the kernel's program applies, and its result is the reference's arrangement of the contraction.
-/
import proofs.«175520_j39204461478459_1_alg».proof.Proof.RefRead
import proofs.«175520_j39204461478459_1_alg».proof.Proof.Spec
import proofs.«175520_j39204461478459_1_alg».proof.Proof.AvgChain
import Idealize.ShloMosaic.Lib.Pipeline.Value
import Idealize.ShloMosaic.Lib.ValueIdx
import Idealize.ShloMosaic.PureOps.Ideal.Laws

set_option maxRecDepth 16384

noncomputable section

namespace Cert.ReferenceIdeal.Hand

open Cert.ReferenceIdeal Cert.ReferenceIdeal.Gen Cert.ReferenceIdeal.ReadP Cert.NodeAgg
open Idealize.ShloMosaic Idealize.ShloMosaic.TcCoe Idealize.SL.Sem

/-- The reference's signal stage is the signal function. -/
theorem ref_signal (x0 : (⟨S50000x512, .f32⟩ : BufTy).Contents (Elt Ideal)) (x2 : (⟨S4x512, .f32⟩ : BufTy).Contents (Elt Ideal))
    (x3 : (⟨S4, .f32⟩ : BufTy).Contents (Elt Ideal)) :
    val_main_v9 (F := Ideal) x0 x2 x3 = signal x0 x2 x3 := by
  -- entry (n, c): the row product reads x at (n, k) and the transposed weight at (c, k); the twice broadcast bias reads b at c
  funext i
  obtain ⟨n, c, rfl⟩ : ∃ (n : Fin 50000) (c : Fin 4), i = ValueIdx.ix2 n c := ⟨i 0, i 1, ValueIdx.eq_ix2 i⟩
  have el : ∀ k : Fin 512, lidx_main_v5 (ValueIdx.ix2 n c) k = ValueIdx.ix2 n k := fun k =>
    funext fun a => Fin.ext (by match a with | ⟨0, _⟩ => rfl | ⟨1, _⟩ => rfl)
  have er : ∀ k : Fin 512, idx_main_v4 (ridx_main_v5 (ValueIdx.ix2 n c) k) = ValueIdx.ix2 c k := fun k =>
    funext fun a => Fin.ext (by match a with | ⟨0, _⟩ => rfl | ⟨1, _⟩ => rfl)
  have eb : idx_main_v6 (idx_main_v7 (ValueIdx.ix2 n c)) = ValueIdx.ix1 c :=
    funext fun a => Fin.ext (by match a with | ⟨0, _⟩ => rfl)
  rw [val_main_v9_apply, val_main_v8_apply, val_main_v5_apply, val_main_v7_apply, val_main_v6_apply]
  simp only [val_main_v4_apply, el, er, eb, Ideal.hostUnary_tanh_def, Ideal.addf_def]
  rfl

/-! The mean stage, one sub-chain at a time. Each reference stage is the same composition of host operations, over the
    same shapes and index maps, as the named part of the mean chain; both sides unfold to one and the same term. -/

open Cert.KernelIdeal.Hand in
/-- The first row of the edge list, flattened: the sources. -/
private theorem ref_src (x1 : (⟨S2x1600000, .i32⟩ : BufTy).Contents (Elt Ideal)) :
    val_main_v1 (F := Ideal) x1 = srcOf x1 := by
  unfold val_main_v1 val_main_v0 srcOf
  rfl

open Cert.KernelIdeal.Hand in
/-- The second row of the edge list, flattened: the targets. -/
private theorem ref_tgt (x1 : (⟨S2x1600000, .i32⟩ : BufTy).Contents (Elt Ideal)) :
    val_main_v3 (F := Ideal) x1 = tgtOf x1 := by
  unfold val_main_v3 val_main_v2 tgtOf
  rfl

open Cert.KernelIdeal.Hand in
/-- A negative source counts from the end: where s < 0 take s + 50000, else s. -/
private theorem ref_wrap (x1 : (⟨S2x1600000, .i32⟩ : BufTy).Contents (Elt Ideal)) :
    val_main_v14 (F := Ideal) x1 = srcWrapped x1 := by
  unfold val_main_v14 val_main_v11 val_main_v13 val_main_v10 val_main_v12 val_main_c val_main_c_0 srcWrapped
  rewrite [ref_src]
  rfl

open Cert.KernelIdeal.Hand in
/-- A row of ones added at every target: the number of incoming edges. -/
private theorem ref_cnt (x1 : (⟨S2x1600000, .i32⟩ : BufTy).Contents (Elt Ideal)) :
    val_main_v23 (F := Ideal) x1 = inCount (F := Ideal) x1 := by
  unfold val_main_v23 val_main_v21 val_main_v22 val_main_v20 val_main_cst_2 val_main_cst_1 inCount
  rewrite [ref_tgt]
  rfl

open Cert.KernelIdeal.Hand in
/-- The signal rows gathered at the wrapped sources, added into the row of their target. -/
private theorem ref_seg (x0 : (⟨S50000x512, .f32⟩ : BufTy).Contents (Elt Ideal)) (x1 : (⟨S2x1600000, .i32⟩ : BufTy).Contents (Elt Ideal))
    (x2 : (⟨S4x512, .f32⟩ : BufTy).Contents (Elt Ideal)) (x3 : (⟨S4, .f32⟩ : BufTy).Contents (Elt Ideal)) :
    val_main_v19 (F := Ideal) x0 x1 x2 x3 = segSum (F := Ideal) (val_main_v9 (F := Ideal) x0 x2 x3) x1 := by
  unfold val_main_v19 val_main_v16 val_main_v17 val_main_v18 val_main_v15 val_main_cst segSum
  rewrite [ref_tgt, ref_wrap]
  generalize val_main_v9 (F := Ideal) x0 x2 x3 = s
  rfl

/-- The reference's mean stage is the mean chain of its signal stage. -/
theorem ref_avg (x0 : (⟨S50000x512, .f32⟩ : BufTy).Contents (Elt Ideal)) (x1 : (⟨S2x1600000, .i32⟩ : BufTy).Contents (Elt Ideal))
    (x2 : (⟨S4x512, .f32⟩ : BufTy).Contents (Elt Ideal)) (x3 : (⟨S4, .f32⟩ : BufTy).Contents (Elt Ideal)) :
    val_main_v32 (F := Ideal) x0 x1 x2 x3 = Cert.KernelIdeal.Hand.avgOf (F := Ideal) (val_main_v9 (F := Ideal) x0 x2 x3) x1 := by
  -- where the count is positive, the sum divided by max(count, 1); elsewhere the constant zero
  unfold val_main_v32 val_main_call0_v1 val_main_v26 val_main_v24 val_main_v25 val_main_cst_3 val_main_v31 val_main_v30 val_main_v29
    val_main_v28 val_main_v27 val_main_cst_4 val_main_call0_v2 val_main_call0_v0 val_main_cst_5 Cert.KernelIdeal.Hand.avgOf
  rewrite [ref_cnt, ref_seg]
  generalize val_main_v9 (F := Ideal) x0 x2 x3 = s
  rfl

/-- The reference's result is its arrangement of the contraction over its mean stage. -/
theorem ref_agg (x0 : (⟨S50000x512, .f32⟩ : BufTy).Contents (Elt Ideal)) (x1 : (⟨S2x1600000, .i32⟩ : BufTy).Contents (Elt Ideal))
    (x2 : (⟨S4x512, .f32⟩ : BufTy).Contents (Elt Ideal)) (x3 : (⟨S4, .f32⟩ : BufTy).Contents (Elt Ideal))
    (x4 : (⟨S64x4, .f32⟩ : BufTy).Contents (Elt Ideal)) (x5 : (⟨S64, .f32⟩ : BufTy).Contents (Elt Ideal)) :
    val_main_v43 (F := Ideal) x0 x1 x2 x3 x4 x5 = aggR x0 (val_main_v32 (F := Ideal) x0 x1 x2 x3) x4 x5 := by
  -- entry (n, f, o): the message at core k is mean(n, k) · x(n, f), f read in the first 64 columns; it is contracted with W(o, k)
  -- over the four cores, the bias b(o) is added and the sum is clamped at zero
  funext i
  obtain ⟨n, f, o, rfl⟩ : ∃ (n : Fin 50000) (f : Fin 64) (o : Fin 64), i = ValueIdx.ix3 n f o :=
    ⟨i 0, i 1, i 2, ValueIdx.eq_ix3 i⟩
  have ea : ∀ k : Fin 4, idx_main_v33 (idx_main_v36 (lidx_main_v39 (ValueIdx.ix3 n f o) k)) = ValueIdx.ix2 n k := fun k =>
    funext fun a => Fin.ext (by match a with | ⟨0, _⟩ => rfl | ⟨1, _⟩ => rfl)
  have ex : ∀ k : Fin 4, idx_main_v34 (idx_main_v35 (idx_main_v37 (lidx_main_v39 (ValueIdx.ix3 n f o) k)))
      = ValueIdx.ix2 n (Fin.castLE (n := 64) (m := 512) (by decide) f) := fun k =>
    funext fun a => Fin.ext (by match a with | ⟨0, _⟩ => rfl | ⟨1, _⟩ => rfl)
  have ew : ∀ k : Fin 4, ridx_main_v39 (ValueIdx.ix3 n f o) k = ValueIdx.ix2 o k := fun k =>
    funext fun a => Fin.ext (by match a with | ⟨0, _⟩ => rfl | ⟨1, _⟩ => rfl)
  have eb : idx_main_v40 (idx_main_v41 (ValueIdx.ix3 n f o)) = ValueIdx.ix1 o :=
    funext fun a => Fin.ext (by match a with | ⟨0, _⟩ => rfl)
  -- the message at core k, read through the two broadcasts of the mean and the slice and broadcasts of x
  have hm : ∀ k : Fin 4, val_main_v38 (F := Ideal) x0 x1 x2 x3 (lidx_main_v39 (ValueIdx.ix3 n f o) k)
      = val_main_v32 (F := Ideal) x0 x1 x2 x3 (ValueIdx.ix2 n k) * x0 (ValueIdx.ix2 n (Fin.castLE (n := 64) (m := 512) (by decide) f)) := fun k => by
    rw [val_main_v38_apply, val_main_v36_apply, val_main_v33_apply, val_main_v37_apply, val_main_v35_apply,
      val_main_v34_apply, ea, ex]
    rfl
  rw [val_main_v43_apply, val_main_v42_apply, val_main_v39_apply, val_main_v41_apply, val_main_v40_apply,
    val_main_call1_v0_apply, val_main_call1_cst_apply, eb]
  generalize val_main_v32 (F := Ideal) x0 x1 x2 x3 = avg at hm ⊢
  have hs : (∑ k : Fin 4, val_main_v38 (F := Ideal) x0 x1 x2 x3 (lidx_main_v39 (ValueIdx.ix3 n f o) k) * x4 (ridx_main_v39 (ValueIdx.ix3 n f o) k))
      = ∑ k : Fin 4, (avg (ValueIdx.ix2 n k) * x0 (ValueIdx.ix2 n (Fin.castLE (n := 64) (m := 512) (by decide) f))) * x4 (ValueIdx.ix2 o k) :=
    Finset.sum_congr rfl fun k _ => by rw [hm k, ew k]
  rw [hs]
  rfl

end Cert.ReferenceIdeal.Hand

end
-- ==== Proof.FinitePre.lean ====
/-
  The precondition read: every float argument array holds real numbers only. The printed predicate is the conjunction,
  over the five float arguments, of "every entry's absolute value is below +infinity".
-/
import proofs.«175520_j39204461478459_1_alg».proof.Defs
import proofs.«175520_j39204461478459_1_alg».proof.Proof.Gen.Pre_finite_inputs
import proofs.«175520_j39204461478459_1_alg».proof.Proof.Gen.KernelIdeal
import proofs.«175520_j39204461478459_1_alg».proof.Proof.Spec
import Idealize.ShloMosaic.Lib.ReduceAll

set_option maxRecDepth 16384

noncomputable section

namespace Cert.KernelIdeal.Hand

open Cert.KernelIdeal Cert.NodeAgg
open Idealize.ShloMosaic Idealize.ShloMosaic.TcCoe Idealize.SL.Sem

/-- An extended real whose absolute value lies below +infinity is a real number. -/
private theorem real_of_abs_lt_top (x : EReal) (h : max x (-x) < ⊤) : ∃ r : ℝ, x = (r : EReal) := by
  induction x using EReal.rec with
  | bot => simp at h
  | coe r => exact ⟨r, rfl⟩
  | top => simp at h

/-- The word 0x7F800000 denotes +infinity. -/
private theorem ofBits_inf : Ideal.ofBits .f32 0x7F800000#32 = (⊤ : EReal) := by
  simp [Ideal.ofBits, Ideal.ieee]

/-- The scalar shape has one index. -/
private instance : Subsingleton Cert.Pre_finite_inputs.S_.Idx := ⟨fun a b => funext fun d => d.elim0⟩

/-- If the conjunction over all entries of "|a i| < +infinity" is true, every entry of a is a real number. -/
private theorem allReal_of_all_lt_inf {s u : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < u.numel) (init : u.Idx → BitVec 1)
    (e : Host.reduce IntOp.andi
        (cmpf (F := Ideal) .olt (Host.absf (F := Ideal) a)
          (broadcastInDim s ![] hb (constant (F := Ideal) Cert.Pre_finite_inputs.S_ .f32 0x7F800000#32)))
        init hr hu ValueIdx.ix0 = 1#1) :
    AllReal (ι := s.Idx) a := by
  intro i
  have h1 := Host.reduce_andi_all _ init hr hu ValueIdx.ix0 e i
  have h2 : Ideal.cmp .olt (max (a i) (-(a i))) (Ideal.ofBits .f32 0x7F800000#32) = 1#1 := h1
  rw [ofBits_inf] at h2
  apply real_of_abs_lt_top
  by_contra hn
  simp [Ideal.cmp, hn] at h2

/-- Under the precondition the features, both weight arrays and both biases are real-valued. -/
theorem pre_allReal (m : (ℓ : Loc nD τ sig) → Buf (Elt Ideal) ℓ)
    (h : Cert.Pre_KernelIdeal (hPre_finite_inputs := Cert.Pre_finite_inputs.Gen.facts) m) (c : Dev nD) :
    AllReal (m ((c.tc : Thread nD τ).loc main_arg0)) ∧ AllReal (m ((c.tc : Thread nD τ).loc main_arg2))
      ∧ AllReal (m ((c.tc : Thread nD τ).loc main_arg3)) ∧ AllReal (m ((c.tc : Thread nD τ).loc main_arg4))
      ∧ AllReal (m ((c.tc : Thread nD τ).loc main_arg5)) := by
  -- the predicate's one entry: a conjunction, nested to the left, of the five "all entries finite" words
  have h0 := congrFun (h c) ValueIdx.ix0
  dsimp only [Cert.Pre_finite_inputs.fn, Cert.Pre_finite_inputs.fn_part1] at h0
  obtain ⟨h0123, e5⟩ := IntOp.andi_eq_one.1 h0
  obtain ⟨h012, e4⟩ := IntOp.andi_eq_one.1 h0123
  obtain ⟨h01, e3⟩ := IntOp.andi_eq_one.1 h012
  obtain ⟨e0, e2⟩ := IntOp.andi_eq_one.1 h01
  exact ⟨allReal_of_all_lt_inf _ _ _ _ _ e0, allReal_of_all_lt_inf _ _ _ _ _ e2, allReal_of_all_lt_inf _ _ _ _ _ e3,
    allReal_of_all_lt_inf _ _ _ _ _ e4, allReal_of_all_lt_inf _ _ _ _ _ e5⟩

end Cert.KernelIdeal.Hand

end
-- ==== Proof.lean ====
/-
  The certificate of the node-aggregation kernel against its reference, over the extended reals.

  Both programs compute, for every node n, the signal s[n, c] = tanh(∑ₖ x[n, k] · w[c, k] + b[c]) of each of four cores,
  average the signals of the node's incoming neighbours with the same host operations (avg[n, c]; zero for a node with no
  incoming edge), and produce out[n, f, o] = max(… + bias[o], 0) for f, o < 64, where the kernel forms
  x[n, f] · (∑_c avg[n, c] · W[o, c]) and the reference (∑_c (avg[n, c] · x[n, f]) · W[o, c]).
  The kernel program does this in two regions: the first leaves the signals and the first 64 features of every node, the
  host operations between the regions form the mean, the second region forms the result; each region's output array is
  read off its blocks as one function of the arrays the region found. The reference is read one operation at a time.
  The two results differ by moving the factor x[n, f] across the sum over the cores, which holds on the extended reals
  because every term is real: x and W by the precondition, the mean because tanh is real-valued everywhere, a finite sum
  of reals is real, and the count of incoming edges is divided by only after taking its maximum with one.
  The three frames are the generated ones (the reference's is its run with the result dropped); nothing was rewritten by
  the idealization, so the preservation claim is trivial.
-/
import proofs.«175520_j39204461478459_1_alg».proof.Defs
import proofs.«175520_j39204461478459_1_alg».proof.Proof.Gen.Kernel
import proofs.«175520_j39204461478459_1_alg».proof.Proof.Gen.Kernel.Frame
import proofs.«175520_j39204461478459_1_alg».proof.Proof.Gen.KernelIdeal
import proofs.«175520_j39204461478459_1_alg».proof.Proof.Gen.KernelIdeal.Frame
import proofs.«175520_j39204461478459_1_alg».proof.Proof.Gen.ReferenceIdeal
import proofs.«175520_j39204461478459_1_alg».proof.Proof.Gen.Pre_finite_inputs
import proofs.«175520_j39204461478459_1_alg».proof.Proof.RunNamed
import proofs.«175520_j39204461478459_1_alg».proof.Proof.RefRun
import proofs.«175520_j39204461478459_1_alg».proof.Proof.RefRead
import proofs.«175520_j39204461478459_1_alg».proof.Proof.Spec
import proofs.«175520_j39204461478459_1_alg».proof.Proof.AvgChain
import proofs.«175520_j39204461478459_1_alg».proof.Proof.KernelValue
import proofs.«175520_j39204461478459_1_alg».proof.Proof.RefValue
import proofs.«175520_j39204461478459_1_alg».proof.Proof.FinitePre
import Idealize.ShloMosaic.Adequacy
import Idealize.ShloMosaic.Init

noncomputable section

namespace Cert.Proof

open Idealize.ShloMosaic Idealize.SL.Sem Cert.NodeAgg

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- Both programs end with the result at the kernel's arrangement of the arguments: the kernel program by its two
    regions and the host stretch between them, the reference by its stages and the distributive step, which the real
    values of x, of the mean and of W license. -/
theorem algebraic : Cert.algebraic_KernelIdeal_ReferenceIdeal := by
  intro m ρ m' ρ' hpre hagree
  refine ⟨fun c => aggK
      (slice64 (m ((c.tc : Thread Cert.KernelIdeal.nD Cert.KernelIdeal.τ).loc Cert.KernelIdeal.main_arg0)))
      (Cert.KernelIdeal.Hand.avgOf (F := Ideal)
        (signal (m ((c.tc : Thread Cert.KernelIdeal.nD Cert.KernelIdeal.τ).loc Cert.KernelIdeal.main_arg0))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Hand.kernel_value m ρ c), (h c).2⟩)
      (Cert.KernelIdeal.GenP.run_named m ρ)
  · refine (θ_run Cert.ReferenceIdeal.defs _ _).mono (fun r h c => ⟨(h c).1.trans ?_, (h c).2⟩)
      (Cert.ReferenceIdeal.RunP.run (F := Ideal) m' ρ')
    obtain ⟨h0, h1, h2, h3, h4, h5⟩ := hagree c
    obtain ⟨r0, r2, r3, r4, r5⟩ := Cert.KernelIdeal.Hand.pre_allReal m hpre c
    rw [Cert.ReferenceIdeal.ReadP.val_main_v43_eq, Cert.ReferenceIdeal.Hand.ref_agg, Cert.ReferenceIdeal.Hand.ref_avg,
      Cert.ReferenceIdeal.Hand.ref_signal, h0, h1, h2, h3, h4, h5]
    exact (aggK_slice_eq_aggR _ _ _ _ r0
      (Cert.KernelIdeal.Hand.avgOf_allReal _ _ (signal_allReal _ _ _)) r4).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
